-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S9x148 : Shape := ⟨2, ![9, 148]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S9x148 : S_.BroadcastsInDim S9x148 (![] : Fin 0 → Fin S9x148.rank)
  reducesTo_S9x148_S_d0_1 : S9x148.ReducesTo [0, 1] S_

variable [Facts]

def fn {F : FTy → Type} [FloatOps F] (main_arg0 : FVec F S100000x64 .f32) (main_arg1 : IVec S2x1600000 32) (main_arg2 : IVec S1600000 32) (main_arg3 : IVec S100000 32) (main_arg4 : FVec F S9x148 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S9x148 .f32 := Host.absf main_arg4
  let main_cst_0 : FVec F S_ .f32 := constant S_ .f32 0x7F800000#32
  let main_v5 : FVec F S9x148 .f32 := broadcastInDim S9x148 ![] bcast_S_S9x148 main_cst_0
  let main_v6 : IVec S9x148 1 := cmpf .olt main_v4 main_v5
  let main_c_1 : IVec S_ 1 := constantI S_ 1 1#1
  let main_v7 : IVec S_ 1 := (fun x v => Host.reduce IntOp.andi x v reducesTo_S9x148_S_d0_1 h_S_) main_v6 main_c_1
  let main_v8 : IVec S_ 1 := andi main_v3 main_v7
  main_v8
-- ==== Kernel.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S9x148 : Shape := ⟨2, ![9, 148]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1600000x3 : Shape := ⟨2, ![1600000, 3]⟩
abbrev S9x64 : Shape := ⟨2, ![9, 64]⟩
abbrev S64x9 : Shape := ⟨2, ![64, 9]⟩
abbrev S9x4 : Shape := ⟨2, ![9, 4]⟩
abbrev S4x9 : Shape := ⟨2, ![4, 9]⟩
abbrev S9x12 : Shape := ⟨2, ![9, 12]⟩
abbrev S12x9 : Shape := ⟨2, ![12, 9]⟩
abbrev S1600000x9 : Shape := ⟨2, ![1600000, 9]⟩
abbrev S8000x64 : Shape := ⟨2, ![8000, 64]⟩
abbrev S8000x3 : Shape := ⟨2, ![8000, 3]⟩
abbrev S8000x9 : Shape := ⟨2, ![8000, 9]⟩
abbrev S8000x1 : Shape := ⟨2, ![8000, 1]⟩
abbrev S8000x4 : Shape := ⟨2, ![8000, 4]⟩
abbrev S8000x12 : Shape := ⟨2, ![8000, 12]⟩
abbrev S1600000x3x3 : Shape := ⟨3, ![1600000, 3, 3]⟩

abbrev nBuf : Space → Nat
  | .hbm => 67
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .i32⟩
  | .hbm, ⟨3, _⟩ => ⟨S100000, .i32⟩
  | .hbm, ⟨4, _⟩ => ⟨S9x148, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000x64, .bf16⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .bf16⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .bf16⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .i32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .i32⟩
  | .hbm, ⟨46, _⟩ => ⟨S1600000x1, .i32⟩
  | .hbm, ⟨47, _⟩ => ⟨S1600000x1, .i32⟩
  | .hbm, ⟨48, _⟩ => ⟨S1600000x1, .i32⟩
  | .hbm, ⟨49, _⟩ => ⟨S1600000x3, .i32⟩
  | .hbm, ⟨50, _⟩ => ⟨S9x64, .f32⟩
  | .hbm, ⟨51, _⟩ => ⟨S64x9, .f32⟩
  | .hbm, ⟨52, _⟩ => ⟨S64x9, .bf16⟩
  | .hbm, ⟨53, _⟩ => ⟨S9x64, .f32⟩
  | .hbm, ⟨54, _⟩ => ⟨S64x9, .f32⟩
  | .hbm, ⟨55, _⟩ => ⟨S64x9, .bf16⟩
  | .hbm, ⟨56, _⟩ => ⟨S9x4, .f32⟩
  | .hbm, ⟨57, _⟩ => ⟨S4x9, .f32⟩
  | .hbm, ⟨58, _⟩ => ⟨S4x9, .bf16⟩
  | .hbm, ⟨59, _⟩ => ⟨S9x4, .f32⟩
  | .hbm, ⟨60, _⟩ => ⟨S4x9, .f32⟩
  | .hbm, ⟨61, _⟩ => ⟨S4x9, .bf16⟩
  | .hbm, ⟨62, _⟩ => ⟨S9x12, .f32⟩
  | .hbm, ⟨63, _⟩ => ⟨S12x9, .f32⟩
  | .hbm, ⟨64, _⟩ => ⟨S12x9, .bf16⟩
  | .hbm, ⟨65, _⟩ => ⟨S1600000x9, .f32⟩
  | .hbm, ⟨66, _⟩ => ⟨S1600000x3x3, .f32⟩
  | .local _ .vmem, ⟨0, _⟩ => ⟨S8000x64, .bf16⟩
  | .local _ .vmem, ⟨1, _⟩ => ⟨S8000x64, .bf16⟩
  | .local _ .vmem, ⟨2, _⟩ => ⟨S8000x64, .bf16⟩
  | .local _ .vmem, ⟨3, _⟩ => ⟨S8000x64, .bf16⟩
  | .local _ .vmem, ⟨4, _⟩ => ⟨S8000x3, .i32⟩
  | .local _ .vmem, ⟨5, _⟩ => ⟨S8000x3, .i32⟩
  | .local _ .vmem, ⟨6, _⟩ => ⟨S64x9, .bf16⟩
  | .local _ .vmem, ⟨7, _⟩ => ⟨S64x9, .bf16⟩
  | .local _ .vmem, ⟨8, _⟩ => ⟨S4x9, .bf16⟩
  | .local _ .vmem, ⟨9, _⟩ => ⟨S4x9, .bf16⟩
  | .local _ .vmem, ⟨10, _⟩ => ⟨S12x9, .bf16⟩
  | .local _ .vmem, ⟨11, _⟩ => ⟨S8000x9, .f32⟩
  | .local _ .vmem, ⟨12, _⟩ => ⟨S8000x9, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x3 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x9 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x9 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x9 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x9 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S12x9 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8000x9 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x1_S1600000x3_d1 : Shape.Concatenates [S1600000x1, S1600000x1, S1600000x1] S1600000x3 1
  slices_S9x148_S9x64_0_0 : S9x148.Slices ![0, 0] S9x64
  transposes_S9x64_S64x9_1_0 : S9x64.Transposes [1, 0] S64x9
  slices_S9x148_S9x64_0_64 : S9x148.Slices ![0, 64] S9x64
  slices_S9x148_S9x4_0_128 : S9x148.Slices ![0, 128] S9x4
  transposes_S9x4_S4x9_1_0 : S9x4.Transposes [1, 0] S4x9
  slices_S9x148_S9x4_0_132 : S9x148.Slices ![0, 132] S9x4
  slices_S9x148_S9x12_0_136 : S9x148.Slices ![0, 136] S9x12
  transposes_S9x12_S12x9_1_0 : S9x12.Transposes [1, 0] S12x9
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x3_S8000x3_0_0 : ∀ a, (![0, 0] : Fin 2 → Nat) a + S8000x3.size a ≤ S8000x3.size a
  h_S8000x3 : 0 < S8000x3.numel
  shapeCasts_S8000x3_S8000x3 : S8000x3.ShapeCasts S8000x3
  slices_S8000x3_o0_0_S8000x1 : S8000x3.Slices ![0, 0] S8000x1
  slices_S8000x3_o0_1_S8000x1 : S8000x3.Slices ![0, 1] S8000x1
  slices_S8000x3_o0_2_S8000x1 : S8000x3.Slices ![0, 2] S8000x1
  iota_S8000x4_d1_w32 : S8000x4.Iotas .tc 32 [1]
  broadcasts_S8000x1_S8000x4 : S8000x1.Broadcasts S8000x4
  natLt_1_32 : 1 < 32
  iota_S8000x12_d1_w32 : S8000x12.Iotas .tc 32 [1]
  broadcasts_S8000x1_S8000x12 : S8000x1.Broadcasts S8000x12
  inb_S64x9_S64x9_0_0 : ∀ a, (![0, 0] : Fin 2 → Nat) a + S64x9.size a ≤ S64x9.size a
  h_S64x9 : 0 < S64x9.numel
  shapeCasts_S64x9_S64x9 : S64x9.ShapeCasts S64x9
  inb_S4x9_S4x9_0_0 : ∀ a, (![0, 0] : Fin 2 → Nat) a + S4x9.size a ≤ S4x9.size a
  h_S4x9 : 0 < S4x9.numel
  shapeCasts_S4x9_S4x9 : S4x9.ShapeCasts S4x9
  inb_S12x9_S12x9_0_0 : ∀ a, (![0, 0] : Fin 2 → Nat) a + S12x9.size a ≤ S12x9.size a
  h_S12x9 : 0 < S12x9.numel
  shapeCasts_S12x9_S12x9 : S12x9.ShapeCasts S12x9
  inb_S8000x9_S8000x9_0_0 : ∀ a, (![0, 0] : Fin 2 → Nat) a + S8000x9.size a ≤ S8000x9.size a
  h_S8000x9 : 0 < S8000x9.numel
  shapeCasts_S1600000x9_S1600000x3x3 : S1600000x9.ShapeCasts S1600000x3x3
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  dot_S8000x64_S64x9_S8000x9_1_0_0_1_n_n_wf : DotDims.WF S8000x64 S64x9 S8000x9 [1] [0] [0] [1] [] []
  dot_S8000x4_S4x9_S8000x9_1_0_0_1_n_n_wf : DotDims.WF S8000x4 S4x9 S8000x9 [1] [0] [0] [1] [] []
  dot_S8000x12_S12x9_S8000x9_1_0_0_1_n_n_wf : DotDims.WF S8000x12 S12x9 S8000x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .bf16 = 32 ∨ (Rect.block (s := S1600000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .bf16 = 32 ∨ (Rect.block (s := S1600000x64) S8000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x3.size a ≤ S1600000x3.size a
  hwx0_2 : ∀ i : grid0.Coords, EltTy.bits .i32 = 32 ∨ (Rect.block (s := S1600000x3) S8000x3.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x9.size a ≤ S64x9.size a
  hwx0_3 : ∀ i : grid0.Coords, EltTy.bits .bf16 = 32 ∨ (Rect.block (s := S64x9) S64x9.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x9.size a ≤ S64x9.size a
  hwx0_4 : ∀ i : grid0.Coords, EltTy.bits .bf16 = 32 ∨ (Rect.block (s := S64x9) S64x9.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x9.size a ≤ S4x9.size a
  hwx0_5 : ∀ i : grid0.Coords, EltTy.bits .bf16 = 32 ∨ (Rect.block (s := S4x9) S4x9.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x9.size a ≤ S4x9.size a
  hwx0_6 : ∀ i : grid0.Coords, EltTy.bits .bf16 = 32 ∨ (Rect.block (s := S4x9) S4x9.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S12x9.size a ≤ S12x9.size a
  hwx0_7 : ∀ i : grid0.Coords, EltTy.bits .bf16 = 32 ∨ (Rect.block (s := S12x9) S12x9.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x9.size a ≤ S1600000x9.size a
  hwx0_8 : ∀ i : grid0.Coords, EltTy.bits .f32 = 32 ∨ (Rect.block (s := S1600000x9) S8000x9.size (cc0_transform_8 i) (hinb0_8 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S8000x64_S64x9_S8000x9_1_0_0_1_n_n : DotDims S8000x64 S64x9 S8000x9 where
  lhsContracting := [1]
  rhsContracting := [0]
  lhsNonContracting := [0]
  rhsNonContracting := [1]
  lhsBatch := []
  rhsBatch := []
  wf := dot_S8000x64_S64x9_S8000x9_1_0_0_1_n_n_wf
def dot_S8000x4_S4x9_S8000x9_1_0_0_1_n_n : DotDims S8000x4 S4x9 S8000x9 where
  lhsContracting := [1]
  rhsContracting := [0]
  lhsNonContracting := [0]
  rhsNonContracting := [1]
  lhsBatch := []
  rhsBatch := []
  wf := dot_S8000x4_S4x9_S8000x9_1_0_0_1_n_n_wf
def dot_S8000x12_S12x9_S8000x9_1_0_0_1_n_n : DotDims S8000x12 S12x9 S8000x9 where
  lhsContracting := [1]
  rhsContracting := [0]
  lhsNonContracting := [0]
  rhsNonContracting := [1]
  lhsBatch := []
  rhsBatch := []
  wf := dot_S8000x12_S12x9_S8000x9_1_0_0_1_n_n_wf

abbrev win0_0 : Pipeline.Window sig grid0 :=
  Pipeline.Window.ofSpec (Memref.whole main_v11) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S8000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S64x9.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S64x9.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S4x9.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v48) S4x9.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v51) S12x9.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v52) S8000x9.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S100000 : Shape := ⟨1, ![100000]⟩
abbrev S9x148 : Shape := ⟨2, ![9, 148]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x4 : Shape := ⟨2, ![1, 4]⟩
abbrev S100000x4 : Shape := ⟨2, ![100000, 4]⟩
abbrev S1600000x4 : Shape := ⟨2, ![1600000, 4]⟩
abbrev S1x12 : Shape := ⟨2, ![1, 12]⟩
abbrev S1600000x12 : Shape := ⟨2, ![1600000, 12]⟩
abbrev S1600000x148 : Shape := ⟨2, ![1600000, 148]⟩
abbrev S148x9 : Shape := ⟨2, ![148, 9]⟩
abbrev S1600000x9 : Shape := ⟨2, ![1600000, 9]⟩
abbrev S1600000x3x3 : Shape := ⟨3, ![1600000, 3, 3]⟩

abbrev nBuf : Space → Nat
  | .hbm => 62
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .i32⟩
  | .hbm, ⟨3, _⟩ => ⟨S100000, .i32⟩
  | .hbm, ⟨4, _⟩ => ⟨S9x148, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S100000x1, .i32⟩
  | .hbm, ⟨28, _⟩ => ⟨S1x4, .i32⟩
  | .hbm, ⟨29, _⟩ => ⟨S100000x4, .i32⟩
  | .hbm, ⟨30, _⟩ => ⟨S100000x4, .i32⟩
  | .hbm, ⟨31, _⟩ => ⟨S100000x4, .i1⟩
  | .hbm, ⟨32, _⟩ => ⟨S100000x4, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x4, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x4, .f32⟩
  | .hbm, ⟨51, _⟩ => ⟨S1600000x1, .i32⟩
  | .hbm, ⟨52, _⟩ => ⟨S1x12, .i32⟩
  | .hbm, ⟨53, _⟩ => ⟨S1600000x12, .i32⟩
  | .hbm, ⟨54, _⟩ => ⟨S1600000x12, .i32⟩
  | .hbm, ⟨55, _⟩ => ⟨S1600000x12, .i1⟩
  | .hbm, ⟨56, _⟩ => ⟨S1600000x12, .f32⟩
  | .hbm, ⟨57, _⟩ => ⟨S1600000x148, .f32⟩
  | .hbm, ⟨58, _⟩ => ⟨S148x9, .f32⟩
  | .hbm, ⟨59, _⟩ => ⟨S1600000x9, .f32⟩
  | .hbm, ⟨60, _⟩ => ⟨S1600000x9, .f32⟩
  | .hbm, ⟨61, _⟩ => ⟨S1600000x3x3, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  bcast_S1x4_S100000x4_0_1 : S1x4.BroadcastsInDim S100000x4 (![0, 1] : Fin 2 → Fin S100000x4.rank)
  bcast_S1600000x1_S1600000x12_0_1 : S1600000x1.BroadcastsInDim S1600000x12 (![0, 1] : Fin 2 → Fin S1600000x12.rank)
  bcast_S1x12_S1600000x12_0_1 : S1x12.BroadcastsInDim S1600000x12 (![0, 1] : Fin 2 → Fin S1600000x12.rank)
  concatenates_S1600000x64_S1600000x64_S1600000x4_S1600000x4_S1600000x12_S1600000x148_d1 : Shape.Concatenates [S1600000x64, S1600000x64, S1600000x4, S1600000x4, S1600000x12] S1600000x148 1
  transposes_S9x148_S148x9_1_0 : S9x148.Transposes [1, 0] S148x9
  shapeCasts_S1600000x9_S1600000x3x3 : S1600000x9.ShapeCasts S1600000x3x3
  gather_S100000x64_S1600000x1_S1600000x64_1_0_n_n_0_1_164_wf : GatherDims.WF S100000x64 S1600000x1 S1600000x64 [1] [0] [] [0] [] 1 ![1, 64]
  gather_S100000x4_S1600000x1_S1600000x4_1_0_n_n_0_1_14_wf : GatherDims.WF S100000x4 S1600000x1 S1600000x4 [1] [0] [] [0] [] 1 ![1, 4]
  dot_S1600000x148_S148x9_S1600000x9_1_0_0_1_n_n_wf : DotDims.WF S1600000x148 S148x9 S1600000x9 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def dot_S1600000x148_S148x9_S1600000x9_1_0_0_1_n_n : DotDims S1600000x148 S148x9 S1600000x9 where
  lhsContracting := [1]
  rhsContracting := [0]
  lhsNonContracting := [0]
  rhsNonContracting := [1]
  lhsBatch := []
  rhsBatch := []
  wf := dot_S1600000x148_S148x9_S1600000x9_1_0_0_1_n_n_wf

class Facts : Prop extends Facts₀ where

variable [Facts]
-- ==== Proof.AroundBits.lean ====
/-
  The word-level kernel program around its one launch.

  The program is a stretch of sixty array operations (two slices of the edge list, the wrap of negative indices, four row
  gathers, the three type columns laid side by side, five transposed slices of the weight matrix), then one launch over a
  grid of 200 points, each point handling 8000 consecutive edges, then one reshape of the launch's result from nine
  columns to three by three. This module fixes what every array holds when the launch begins (the sixty operations folded
  over the initial memory), shows that neither the sixty operations nor the final reshape write any of the five argument
  arrays, names the block of each launched operand that a grid point sees, and reduces the statement "the program runs and
  returns its arguments unchanged" to a run of the launch whose result describes every array after it.
-/
import proofs.«132518_j31842887533251_1_alg».proof.Proof.Gen.Kernel.Launch
import proofs.«132518_j31842887533251_1_alg».proof.Proof.Gen.Kernel.Skeleton
import proofs.«132518_j31842887533251_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the arrays hold when the launch begins -/

/-- Every array of core `c` when the launch begins: the sixty operations before it, folded over the initial memory. -/
abbrev V0 (c : Dev nD) : Valuation τ sig (Elt F) := StableHlo.after (List.flatten [hostOps0]) (fun b => m (c, b))
/-- The same, read at one array. -/
abbrev V (c : Dev nD) (b : Ref sig .tc) : Buf (Elt F) ((c : Thread nD τ).loc b) := V0 m c (Proc.devRef .tc b)

/-- None of the sixty operations before the launch allocates an array. -/
theorem before_fresh : (hostOps0 : List (HloOp τ sig (Elt F))).Forall fun op => op.fresh = ∅ := by
  simp only [List.Forall]; repeat' constructor
/-- Nor does the reshape after it. -/
theorem after_fresh : (hostOps1 : List (HloOp τ sig (Elt F))).Forall fun op => op.fresh = ∅ := by
  simp only [List.Forall]; repeat' constructor

/-- The program is: the sixty operations, the launch entered with the arrays at `V`, then the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The reshape after the launch touches only the launch's arrays and arrays the launch passes by. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- And it writes none of the nine launched arrays: it writes only the three-by-three result. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by nothing -/

/-- None of the sixty operations writes the node features: the launch finds that array as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the sixty operations writes the edge endpoints: the launch finds that array as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the sixty operations writes the edge types: the launch finds that array as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the sixty operations writes the node types: the launch finds that array as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the sixty operations writes the weight matrix: the launch finds that array as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The reshape after the launch does not write the node features either, and no launched array is that one: it ends as given. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The reshape after the launch does not write the edge endpoints either, and no launched array is that one: it ends as given. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- The reshape after the launch does not write the edge types either, and no launched array is that one: it ends as given. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- The reshape after the launch does not write the node types either, and no launched array is that one: it ends as given. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- The reshape after the launch does not write the weight matrix either, and no launched array is that one: it ends as given. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The block of each launched operand at a grid point -/

/-- Operand `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer that stages the gathered source rows holds that operand's block at every grid point, whether the point fetched it or
    found it left there by the point before: an unfetched block has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The buffer that stages the gathered destination rows holds that operand's block at every grid point, whether the point fetched it or
    found it left there by the point before: an unfetched block has not moved. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The buffer that stages the three type columns holds that operand's block at every grid point, whether the point fetched it or
    found it left there by the point before: an unfetched block has not moved. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The buffer that stages the source-feature weights holds that operand's block at every grid point, whether the point fetched it or
    found it left there by the point before: an unfetched block has not moved. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The buffer that stages the destination-feature weights holds that operand's block at every grid point, whether the point fetched it or
    found it left there by the point before: an unfetched block has not moved. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- The buffer that stages the source-type weights holds that operand's block at every grid point, whether the point fetched it or
    found it left there by the point before: an unfetched block has not moved. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- The buffer that stages the destination-type weights holds that operand's block at every grid point, whether the point fetched it or
    found it left there by the point before: an unfetched block has not moved. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- The buffer that stages the edge-type weights holds that operand's block at every grid point, whether the point fetched it or
    found it left there by the point before: an unfetched block has not moved. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The arguments come back unchanged, given a run of the launch -/

/-- A run of the program that ends with every launched array at what the launch's bookkeeping computes, and every other
    array at what the final reshape leaves, returns the five argument arrays as given: none is a launched array, and
    nothing before or after the launch writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c)⟩) h

end Cert.Kernel.Around

end
-- ==== Proof.BodyBits.lean ====
/-
  The word-level kernel's launch: what one grid point computes, and the run of the whole launch.

  At a grid point the body reads eight staged blocks whole (8000 gathered source rows, 8000 gathered destination rows,
  the 8000 by 3 type columns, and the five weight slices), forms the three one-hot matrices from the type columns, adds up
  five matrix products, applies the hyperbolic tangent and stores the 8000 by 9 result whole into the output's buffer. So
  the output's buffer after the body is one function of the eight input blocks, and the launch's bookkeeping is: every
  input buffer still holds its block, the output buffer holds that function of them.
-/
import proofs.«132518_j31842887533251_1_alg».proof.Proof.AroundBits

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The whole-buffer rectangles the body reads and writes through -/

abbrev rRows : Rect S8000x64 := Rect.unit (s := S8000x64) ![0, 0] S8000x64.size inb_S8000x64_S8000x64_0_0
abbrev rTypes : Rect S8000x3 := Rect.unit (s := S8000x3) ![0, 0] S8000x3.size inb_S8000x3_S8000x3_0_0
abbrev rW64 : Rect S64x9 := Rect.unit (s := S64x9) ![0, 0] S64x9.size inb_S64x9_S64x9_0_0
abbrev rW4 : Rect S4x9 := Rect.unit (s := S4x9) ![0, 0] S4x9.size inb_S4x9_S4x9_0_0
abbrev rW12 : Rect S12x9 := Rect.unit (s := S12x9) ![0, 0] S12x9.size inb_S12x9_S12x9_0_0
abbrev rOut : Rect S8000x9 := Rect.unit (s := S8000x9) ![0, 0] S8000x9.size inb_S8000x9_S8000x9_0_0

/-! ## What the body leaves in the output's buffer -/

/-- The output's buffer after the body, from the eight input blocks: its one whole-buffer store, whose value is the
    hyperbolic tangent of the five summed products. -/
def outBlock (x0 : Vec F S8000x64 .bf16) (x1 : Vec F S8000x64 .bf16) (x2 : Vec F S8000x3 .i32) (x3 : Vec F S64x9 .bf16) (x4 : Vec F S64x9 .bf16) (x5 : Vec F S4x9 .bf16) (x6 : Vec F S4x9 .bf16) (x7 : Vec F S12x9 .bf16) : Vec F S8000x9 .f32 :=
  View.canon [⟨rOut, k0_pay1 (k0_pay3 (View.ld x2 rTypes)) (k0_pay4 (View.ld x0 rRows) (View.ld x1 rRows) (View.ld x2 rTypes) (View.ld x3 rW64) (View.ld x4 rW64) (View.ld x5 rW4) (View.ld x6 rW4)) (View.ld x7 rW12)⟩]

/-- The one store covers the buffer. -/
theorem cover_out (p0 : Vec F S8000x9 .f32) (y : S8000x9.Idx) :
    ∃ pc ∈ ([⟨rOut, p0⟩] : List (View.Piece (Elt F) S8000x9 .f32)), y ∈ pc.1.set :=
  View.cover_of_tiled [⟨rOut, p0⟩] S8000x9.size (by rfl) y

/-! ## The body's run -/

set_option maxHeartbeats 4000000 in
/-- On whole buffers, the eight inputs at contents `x0 … x7` and the output at anything, the body runs to its end with
    the inputs as they were and the output at `outBlock` of them. (The body also reads the output's buffer once before it
    stores; the value read is used nowhere.) -/
theorem sound_kernel (c : Dev nD) (E : Set ℕ) (i : grid0.Coords) (arg1 : Memref sig .tc .vmem S8000x64 .bf16) (harg1 : arg1.IsWhole) (arg2 : Memref sig .tc .vmem S8000x64 .bf16) (harg2 : arg2.IsWhole) (arg3 : Memref sig .tc .vmem S8000x3 .i32) (harg3 : arg3.IsWhole) (arg4 : Memref sig .tc .vmem S64x9 .bf16) (harg4 : arg4.IsWhole) (arg5 : Memref sig .tc .vmem S64x9 .bf16) (harg5 : arg5.IsWhole) (arg6 : Memref sig .tc .vmem S4x9 .bf16) (harg6 : arg6.IsWhole) (arg7 : Memref sig .tc .vmem S4x9 .bf16) (harg7 : arg7.IsWhole) (arg8 : Memref sig .tc .vmem S12x9 .bf16) (harg8 : arg8.IsWhole) (arg9 : Memref sig .tc .vmem S8000x9 .f32) (harg9 : arg9.IsWhole)
    (x0 : Vec F S8000x64 .bf16) (x1 : Vec F S8000x64 .bf16) (x2 : Vec F S8000x3 .i32) (x3 : Vec F S64x9 .bf16) (x4 : Vec F S64x9 .bf16) (x5 : Vec F S4x9 .bf16) (x6 : Vec F S4x9 .bf16) (x7 : Vec F S12x9 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlock x0 x1 x2 x3 x4 x5 x6 x7)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover_out _)

/-! ## The launch's bookkeeping -/

/-- On core `c`: the arrays as the launch finds them; after the body at point `t` each input buffer at its block and the
    output buffer at `outBlock` of the eight blocks; nothing else of the core is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body's obligation at every grid point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- At any point the input buffers hold their blocks, so the body's run applies; the rest passes through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run, and the arguments unchanged -/

set_option backward.isDefEq.respectTransparency.types false in
/-- Every weakly fair execution of the program ends, with every launched array at what the bookkeeping computes — the
    output array overwritten block by block by `outBlock` — and every other array at what the final reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The program runs to its end and returns its five argument arrays as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Around

end
-- ==== Proof.AroundIdeal.lean ====
/-
  The idealized kernel program around its one launch.

  The program is a stretch of sixty array operations (two slices of the edge list, the wrap of negative indices, four row
  gathers, the three type columns laid side by side, five transposed slices of the weight matrix), then one launch over a
  grid of 200 points, each point handling 8000 consecutive edges, then one reshape of the launch's result from nine
  columns to three by three. This module fixes what every array holds when the launch begins (the sixty operations folded
  over the initial memory), shows that neither the sixty operations nor the final reshape write any of the five argument
  arrays, names the block of each launched operand that a grid point sees, and reduces the statement "the program runs and
  returns its arguments unchanged" to a run of the launch whose result describes every array after it.
-/
import proofs.«132518_j31842887533251_1_alg».proof.Proof.Gen.KernelIdeal.Launch
import proofs.«132518_j31842887533251_1_alg».proof.Proof.Gen.KernelIdeal.Skeleton
import proofs.«132518_j31842887533251_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the arrays hold when the launch begins -/

/-- Every array of core `c` when the launch begins: the sixty operations before it, folded over the initial memory. -/
abbrev V0 (c : Dev nD) : Valuation τ sig (Elt F) := StableHlo.after (List.flatten [hostOps0]) (fun b => m (c, b))
/-- The same, read at one array. -/
abbrev V (c : Dev nD) (b : Ref sig .tc) : Buf (Elt F) ((c : Thread nD τ).loc b) := V0 m c (Proc.devRef .tc b)

/-- None of the sixty operations before the launch allocates an array. -/
theorem before_fresh : (hostOps0 : List (HloOp τ sig (Elt F))).Forall fun op => op.fresh = ∅ := by
  simp only [List.Forall]; repeat' constructor
/-- Nor does the reshape after it. -/
theorem after_fresh : (hostOps1 : List (HloOp τ sig (Elt F))).Forall fun op => op.fresh = ∅ := by
  simp only [List.Forall]; repeat' constructor

/-- The program is: the sixty operations, the launch entered with the arrays at `V`, then the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The reshape after the launch touches only the launch's arrays and arrays the launch passes by. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- And it writes none of the nine launched arrays: it writes only the three-by-three result. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by nothing -/

/-- None of the sixty operations writes the node features: the launch finds that array as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the sixty operations writes the edge endpoints: the launch finds that array as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the sixty operations writes the edge types: the launch finds that array as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the sixty operations writes the node types: the launch finds that array as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the sixty operations writes the weight matrix: the launch finds that array as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The reshape after the launch does not write the node features either, and no launched array is that one: it ends as given. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The reshape after the launch does not write the edge endpoints either, and no launched array is that one: it ends as given. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- The reshape after the launch does not write the edge types either, and no launched array is that one: it ends as given. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- The reshape after the launch does not write the node types either, and no launched array is that one: it ends as given. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- The reshape after the launch does not write the weight matrix either, and no launched array is that one: it ends as given. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The block of each launched operand at a grid point -/

/-- Operand `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer that stages the gathered source rows holds that operand's block at every grid point, whether the point fetched it or
    found it left there by the point before: an unfetched block has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The buffer that stages the gathered destination rows holds that operand's block at every grid point, whether the point fetched it or
    found it left there by the point before: an unfetched block has not moved. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The buffer that stages the three type columns holds that operand's block at every grid point, whether the point fetched it or
    found it left there by the point before: an unfetched block has not moved. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The buffer that stages the source-feature weights holds that operand's block at every grid point, whether the point fetched it or
    found it left there by the point before: an unfetched block has not moved. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The buffer that stages the destination-feature weights holds that operand's block at every grid point, whether the point fetched it or
    found it left there by the point before: an unfetched block has not moved. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- The buffer that stages the source-type weights holds that operand's block at every grid point, whether the point fetched it or
    found it left there by the point before: an unfetched block has not moved. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- The buffer that stages the destination-type weights holds that operand's block at every grid point, whether the point fetched it or
    found it left there by the point before: an unfetched block has not moved. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- The buffer that stages the edge-type weights holds that operand's block at every grid point, whether the point fetched it or
    found it left there by the point before: an unfetched block has not moved. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The arguments come back unchanged, given a run of the launch -/

/-- A run of the program that ends with every launched array at what the launch's bookkeeping computes, and every other
    array at what the final reshape leaves, returns the five argument arrays as given: none is a launched array, and
    nothing before or after the launch writes one. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c)⟩) h

end Cert.KernelIdeal.Around

end
-- ==== Proof.BodyIdeal.lean ====
/-
  The idealized kernel's launch: what one grid point computes, and the run of the whole launch.

  At a grid point the body reads eight staged blocks whole (8000 gathered source rows, 8000 gathered destination rows,
  the 8000 by 3 type columns, and the five weight slices), forms the three one-hot matrices from the type columns, adds up
  five matrix products, applies the hyperbolic tangent and stores the 8000 by 9 result whole into the output's buffer. So
  the output's buffer after the body is one function of the eight input blocks, and the launch's bookkeeping is: every
  input buffer still holds its block, the output buffer holds that function of them.
-/
import proofs.«132518_j31842887533251_1_alg».proof.Proof.AroundIdeal

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The whole-buffer rectangles the body reads and writes through -/

abbrev rRows : Rect S8000x64 := Rect.unit (s := S8000x64) ![0, 0] S8000x64.size inb_S8000x64_S8000x64_0_0
abbrev rTypes : Rect S8000x3 := Rect.unit (s := S8000x3) ![0, 0] S8000x3.size inb_S8000x3_S8000x3_0_0
abbrev rW64 : Rect S64x9 := Rect.unit (s := S64x9) ![0, 0] S64x9.size inb_S64x9_S64x9_0_0
abbrev rW4 : Rect S4x9 := Rect.unit (s := S4x9) ![0, 0] S4x9.size inb_S4x9_S4x9_0_0
abbrev rW12 : Rect S12x9 := Rect.unit (s := S12x9) ![0, 0] S12x9.size inb_S12x9_S12x9_0_0
abbrev rOut : Rect S8000x9 := Rect.unit (s := S8000x9) ![0, 0] S8000x9.size inb_S8000x9_S8000x9_0_0

/-! ## What the body leaves in the output's buffer -/

/-- The output's buffer after the body, from the eight input blocks: its one whole-buffer store, whose value is the
    hyperbolic tangent of the five summed products. -/
def outBlock (x0 : Vec F S8000x64 .bf16) (x1 : Vec F S8000x64 .bf16) (x2 : Vec F S8000x3 .i32) (x3 : Vec F S64x9 .bf16) (x4 : Vec F S64x9 .bf16) (x5 : Vec F S4x9 .bf16) (x6 : Vec F S4x9 .bf16) (x7 : Vec F S12x9 .bf16) : Vec F S8000x9 .f32 :=
  View.canon [⟨rOut, k0_pay1 (k0_pay3 (View.ld x2 rTypes)) (k0_pay4 (View.ld x0 rRows) (View.ld x1 rRows) (View.ld x2 rTypes) (View.ld x3 rW64) (View.ld x4 rW64) (View.ld x5 rW4) (View.ld x6 rW4)) (View.ld x7 rW12)⟩]

/-- The one store covers the buffer. -/
theorem cover_out (p0 : Vec F S8000x9 .f32) (y : S8000x9.Idx) :
    ∃ pc ∈ ([⟨rOut, p0⟩] : List (View.Piece (Elt F) S8000x9 .f32)), y ∈ pc.1.set :=
  View.cover_of_tiled [⟨rOut, p0⟩] S8000x9.size (by rfl) y

/-! ## The body's run -/

set_option maxHeartbeats 4000000 in
/-- On whole buffers, the eight inputs at contents `x0 … x7` and the output at anything, the body runs to its end with
    the inputs as they were and the output at `outBlock` of them. (The body also reads the output's buffer once before it
    stores; the value read is used nowhere.) -/
theorem sound_kernel (c : Dev nD) (E : Set ℕ) (i : grid0.Coords) (arg1 : Memref sig .tc .vmem S8000x64 .bf16) (harg1 : arg1.IsWhole) (arg2 : Memref sig .tc .vmem S8000x64 .bf16) (harg2 : arg2.IsWhole) (arg3 : Memref sig .tc .vmem S8000x3 .i32) (harg3 : arg3.IsWhole) (arg4 : Memref sig .tc .vmem S64x9 .bf16) (harg4 : arg4.IsWhole) (arg5 : Memref sig .tc .vmem S64x9 .bf16) (harg5 : arg5.IsWhole) (arg6 : Memref sig .tc .vmem S4x9 .bf16) (harg6 : arg6.IsWhole) (arg7 : Memref sig .tc .vmem S4x9 .bf16) (harg7 : arg7.IsWhole) (arg8 : Memref sig .tc .vmem S12x9 .bf16) (harg8 : arg8.IsWhole) (arg9 : Memref sig .tc .vmem S8000x9 .f32) (harg9 : arg9.IsWhole)
    (x0 : Vec F S8000x64 .bf16) (x1 : Vec F S8000x64 .bf16) (x2 : Vec F S8000x3 .i32) (x3 : Vec F S64x9 .bf16) (x4 : Vec F S64x9 .bf16) (x5 : Vec F S4x9 .bf16) (x6 : Vec F S4x9 .bf16) (x7 : Vec F S12x9 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outBlock x0 x1 x2 x3 x4 x5 x6 x7)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover_out _)

/-! ## The launch's bookkeeping -/

/-- On core `c`: the arrays as the launch finds them; after the body at point `t` each input buffer at its block and the
    output buffer at `outBlock` of the eight blocks; nothing else of the core is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outBlock (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body's obligation at every grid point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- At any point the input buffers hold their blocks, so the body's run applies; the rest passes through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run, and the arguments unchanged -/

set_option backward.isDefEq.respectTransparency.types false in
/-- Every weakly fair execution of the program ends, with every launched array at what the bookkeeping computes — the
    output array overwritten block by block by `outBlock` — and every other array at what the final reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The program runs to its end and returns its five argument arrays as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Around

end
-- ==== Proof.EdgeMap.lean ====
/-
  The edge map both programs compute, as one function of an edge and an output column.

  For edge e the feature row has 148 entries laid end to end: the 64 features of the source node, the 64 features of the
  destination node, the one-hot code of the source node's type (4 classes), the one-hot code of the destination node's type
  (4 classes) and the one-hot code of the edge's type (12 classes). The result at (e, o) is the hyperbolic tangent of the
  row's product with row o of the 9 by 148 weight matrix. Written as one sum over the 148 entries it is `joined`; written as
  five sums, one per piece, added left to right, it is `split`. Sums of extended reals may be regrouped freely (addition
  there is commutative and associative, with no condition on the terms), so the two agree on every input.
-/
import Idealize.ShloMosaic.PureOps.Ideal
import Idealize.ShloMosaic.Lib.ValueIdx
import Mathlib.Algebra.BigOperators.Fin

noncomputable section

open scoped BigOperators

namespace Cert.EdgeMap

open Idealize.ShloMosaic

/-- The one-hot entry for class `k` of a type word: one where the word is `k`, zero elsewhere (a word outside the classes
    gives the zero row). -/
def hot (w : BitVec 32) (k : ℕ) : EReal := if w = BitVec.ofNat 32 k then 1 else 0

variable (XS XD : Fin 1600000 → Fin 64 → EReal) (ts td te : Fin 1600000 → BitVec 32) (W : Fin 9 → Fin 148 → EReal)

/-- Entry `k` of edge `e`'s joined feature row. -/
def feat (e : Fin 1600000) (k : Fin 148) : EReal :=
  if h : k.val < 64 then XS e ⟨k.val, h⟩
  else if h : k.val < 128 then XD e ⟨k.val - 64, by omega⟩
  else if k.val < 132 then hot (ts e) (k.val - 128)
  else if k.val < 136 then hot (td e) (k.val - 132)
  else hot (te e) (k.val - 136)

/-- The result as one contraction over the joined row. -/
def joined (e : Fin 1600000) (o : Fin 9) : EReal :=
  Ideal.tanh (∑ k : Fin 148, feat XS XD ts td te e k * W o k)

/-- The result as five contractions, one per piece of the row, added left to right. -/
def split (e : Fin 1600000) (o : Fin 9) : EReal :=
  Ideal.tanh (((((∑ k : Fin 64, XS e k * W o ⟨k.val, by omega⟩)
    + ∑ k : Fin 64, XD e k * W o ⟨64 + k.val, by omega⟩)
    + ∑ k : Fin 4, hot (ts e) k.val * W o ⟨128 + k.val, by omega⟩)
    + ∑ k : Fin 4, hot (td e) k.val * W o ⟨132 + k.val, by omega⟩)
    + ∑ k : Fin 12, hot (te e) k.val * W o ⟨136 + k.val, by omega⟩)

/-- Entries 0 to 63 of the joined row are the source node's features. -/
theorem feat_src (e : Fin 1600000) (k : Fin 148) (h : k.val < 64) :
    feat XS XD ts td te e k = XS e ⟨k.val, h⟩ := by
  unfold feat; rw [dif_pos h]

/-- Entries 64 to 127 are the destination node's features. -/
theorem feat_dst (e : Fin 1600000) (k : Fin 148) (h1 : 64 ≤ k.val) (h2 : k.val < 128) :
    feat XS XD ts td te e k = XD e ⟨k.val - 64, by omega⟩ := by
  unfold feat; rw [dif_neg (by omega), dif_pos h2]

/-- Entries 128 to 131 are the one-hot code of the source node's type. -/
theorem feat_ts (e : Fin 1600000) (k : Fin 148) (h1 : 128 ≤ k.val) (h2 : k.val < 132) :
    feat XS XD ts td te e k = hot (ts e) (k.val - 128) := by
  unfold feat; rw [dif_neg (by omega), dif_neg (by omega), if_pos h2]

/-- Entries 132 to 135 are the one-hot code of the destination node's type. -/
theorem feat_td (e : Fin 1600000) (k : Fin 148) (h1 : 132 ≤ k.val) (h2 : k.val < 136) :
    feat XS XD ts td te e k = hot (td e) (k.val - 132) := by
  unfold feat; rw [dif_neg (by omega), dif_neg (by omega), if_neg (by omega), if_pos h2]

/-- Entries 136 to 147 are the one-hot code of the edge's type. -/
theorem feat_te (e : Fin 1600000) (k : Fin 148) (h1 : 136 ≤ k.val) :
    feat XS XD ts td te e k = hot (te e) (k.val - 136) := by
  unfold feat; rw [dif_neg (by omega), dif_neg (by omega), if_neg (by omega), if_neg (by omega)]

/-- Five terms nested to the right, regrouped to the left, each replaced by an equal one. -/
theorem regroup5 {a b c d f a' b' c' d' f' : EReal} (ha : a = a') (hb : b = b') (hc : c = c') (hd : d = d')
    (hf : f = f') : a + (b + (c + (d + f))) = a' + b' + c' + d' + f' := by
  subst ha hb hc hd hf
  simp only [add_assoc]

/-- One sum over the 148 entries is the five sums over its consecutive pieces. -/
theorem joined_eq_split (e : Fin 1600000) (o : Fin 9) :
    joined XS XD ts td te W e o = split XS XD ts td te W e o := by
  unfold joined split
  refine congrArg Ideal.tanh ?_
  -- 148 = 64 + (64 + (4 + (4 + 12))): split the sum at each boundary
  show ∑ k : Fin (64 + (64 + (4 + (4 + 12)))), feat XS XD ts td te e k * W o k = _
  rw [Fin.sum_univ_add, Fin.sum_univ_add, Fin.sum_univ_add, Fin.sum_univ_add]
  refine regroup5 ?_ ?_ ?_ ?_ ?_
  · -- entries k, k < 64
    refine Finset.sum_congr rfl fun k _ => ?_
    rw [feat_src XS XD ts td te e _ (show (Fin.castAdd (64 + (4 + (4 + 12))) k).val < 64 from k.isLt)]
    rfl
  · -- entries 64 + k, k < 64
    refine Finset.sum_congr rfl fun k _ => ?_
    have hv : (Fin.natAdd 64 (Fin.castAdd (4 + (4 + 12)) k)).val = 64 + k.val := rfl
    have hk := k.isLt
    rw [feat_dst XS XD ts td te e _ (by omega) (by omega)]
    congr 2
    exact Fin.ext (by show (Fin.natAdd 64 (Fin.castAdd (4 + (4 + 12)) k)).val - 64 = k.val; omega)
  · -- entries 128 + k, k < 4
    refine Finset.sum_congr rfl fun k _ => ?_
    have hv : (Fin.natAdd 64 (Fin.natAdd 64 (Fin.castAdd (4 + 12) k))).val = 64 + (64 + k.val) := rfl
    have hk := k.isLt
    rw [feat_ts XS XD ts td te e _ (by omega) (by omega)]
    congr 1
    · congr 1; omega
    · congr 1; exact Fin.ext (by show _ = 128 + k.val; omega)
  · -- entries 132 + k, k < 4
    refine Finset.sum_congr rfl fun k _ => ?_
    have hv : (Fin.natAdd 64 (Fin.natAdd 64 (Fin.natAdd 4 (Fin.castAdd 12 k)))).val = 64 + (64 + (4 + k.val)) := rfl
    have hk := k.isLt
    rw [feat_td XS XD ts td te e _ (by omega) (by omega)]
    congr 1
    · congr 1; omega
    · congr 1; exact Fin.ext (by show _ = 132 + k.val; omega)
  · -- entries 136 + k, k < 12
    refine Finset.sum_congr rfl fun k _ => ?_
    have hv : (Fin.natAdd 64 (Fin.natAdd 64 (Fin.natAdd 4 (Fin.natAdd 4 k)))).val = 64 + (64 + (4 + (4 + k.val))) := rfl
    have hk := k.isLt
    rw [feat_te XS XD ts td te e _ (by omega)]
    congr 1
    · congr 1; omega
    · congr 1; exact Fin.ext (by show _ = 136 + k.val; omega)

end Cert.EdgeMap

end
-- ==== Proof.KernelBlock.lean ====
/-
  The value one grid point stores, entry by entry.

  From its eight loaded blocks the body forms three one-hot matrices out of the three type columns (a column entry compared
  with the class numbers 0, 1, 2, ... along the row), multiplies the two feature blocks and the three one-hot matrices with
  their weight blocks, adds the five products left to right and applies the hyperbolic tangent. Over the extended reals a
  change of float format is the identity and a matrix product into a zero accumulator is the plain sum of products, so
  entry (r, o) of the stored block is the hyperbolic tangent of five finite sums.
-/
import proofs.«132518_j31842887533251_1_alg».proof.Proof.Gen.KernelIdeal.Skeleton
import proofs.«132518_j31842887533251_1_alg».proof.Proof.EdgeMap
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen
open Idealize.ShloMosaic Idealize.ShloMosaic.ValueIdx

/-! ### The product of an 8000 by 64 block with a 64 by 9 block -/

theorem lhs64_0 (i : S8000x9.Idx) (q : dot_S8000x64_S64x9_S8000x9_1_0_0_1_n_n.contr.Idx) :
    (dot_S8000x64_S64x9_S8000x9_1_0_0_1_n_n.lhsIdx i q 0).val = (i 0).val := by
  unfold DotDims.lhsIdx
  rw [dif_neg (show ¬(0 : Fin S8000x64.rank) ∈ dot_S8000x64_S64x9_S8000x9_1_0_0_1_n_n.lhsBatch by decide), dif_pos (show (0 : Fin S8000x64.rank) ∈ dot_S8000x64_S64x9_S8000x9_1_0_0_1_n_n.lhsNonContracting by decide)]
  rfl
theorem lhs64_1 (i : S8000x9.Idx) (q : dot_S8000x64_S64x9_S8000x9_1_0_0_1_n_n.contr.Idx) :
    (dot_S8000x64_S64x9_S8000x9_1_0_0_1_n_n.lhsIdx i q 1).val = (q ⟨0, by decide⟩).val :=
  dot_S8000x64_S64x9_S8000x9_1_0_0_1_n_n.lhsIdx_val_of_single rfl i q
theorem rhs64_0 (i : S8000x9.Idx) (q : dot_S8000x64_S64x9_S8000x9_1_0_0_1_n_n.contr.Idx) :
    (dot_S8000x64_S64x9_S8000x9_1_0_0_1_n_n.rhsIdx i q 0).val = (q ⟨0, by decide⟩).val :=
  dot_S8000x64_S64x9_S8000x9_1_0_0_1_n_n.rhsIdx_val_of_single rfl i q
theorem rhs64_1 (i : S8000x9.Idx) (q : dot_S8000x64_S64x9_S8000x9_1_0_0_1_n_n.contr.Idx) :
    (dot_S8000x64_S64x9_S8000x9_1_0_0_1_n_n.rhsIdx i q 1).val = (i 1).val := by
  unfold DotDims.rhsIdx
  rw [dif_neg (show ¬(1 : Fin S64x9.rank) ∈ dot_S8000x64_S64x9_S8000x9_1_0_0_1_n_n.rhsBatch by decide), dif_pos (show (1 : Fin S64x9.rank) ∈ dot_S8000x64_S64x9_S8000x9_1_0_0_1_n_n.rhsNonContracting by decide)]
  rfl

/-- Into a zero accumulator, the matrix unit's product at (r, o) is the sum over the 64 shared positions of the row's entry
    times the column's entry. -/
theorem matmul64_at (x : FVec Ideal S8000x64 .bf16) (w : FVec Ideal S64x9 .bf16) (r : Fin 8000) (o : Fin 9) :
    matmul dot_S8000x64_S64x9_S8000x9_1_0_0_1_n_n none x w (constant S8000x9 .f32 0x00000000#32) (ix2 r o)
      = ∑ k : Fin 64, x (ix2 r k) * w (ix2 k o) := by
  simp only [matmul]
  rw [Ideal.matmul_constant_zero_apply, ← Equiv.sum_comp (contrEquiv1 dot_S8000x64_S64x9_S8000x9_1_0_0_1_n_n 64 rfl rfl).symm]
  refine Finset.sum_congr rfl fun k _ => ?_
  have hk := contrEquiv1_symm_val dot_S8000x64_S64x9_S8000x9_1_0_0_1_n_n 64 rfl rfl k
  have el : dot_S8000x64_S64x9_S8000x9_1_0_0_1_n_n.lhsIdx (ix2 r o) ((contrEquiv1 dot_S8000x64_S64x9_S8000x9_1_0_0_1_n_n 64 rfl rfl).symm k) = ix2 r k := funext fun a => Fin.ext (by
    match a with
    | ⟨0, _⟩ => exact lhs64_0 _ _
    | ⟨1, _⟩ => exact (lhs64_1 _ _).trans hk)
  have er : dot_S8000x64_S64x9_S8000x9_1_0_0_1_n_n.rhsIdx (ix2 r o) ((contrEquiv1 dot_S8000x64_S64x9_S8000x9_1_0_0_1_n_n 64 rfl rfl).symm k) = ix2 k o := funext fun a => Fin.ext (by
    match a with
    | ⟨0, _⟩ => exact (rhs64_0 _ _).trans hk
    | ⟨1, _⟩ => exact rhs64_1 _ _)
  rw [el, er]

/-! ### The product of an 8000 by 4 block with a 4 by 9 block -/

theorem lhs4_0 (i : S8000x9.Idx) (q : dot_S8000x4_S4x9_S8000x9_1_0_0_1_n_n.contr.Idx) :
    (dot_S8000x4_S4x9_S8000x9_1_0_0_1_n_n.lhsIdx i q 0).val = (i 0).val := by
  unfold DotDims.lhsIdx
  rw [dif_neg (show ¬(0 : Fin S8000x4.rank) ∈ dot_S8000x4_S4x9_S8000x9_1_0_0_1_n_n.lhsBatch by decide), dif_pos (show (0 : Fin S8000x4.rank) ∈ dot_S8000x4_S4x9_S8000x9_1_0_0_1_n_n.lhsNonContracting by decide)]
  rfl
theorem lhs4_1 (i : S8000x9.Idx) (q : dot_S8000x4_S4x9_S8000x9_1_0_0_1_n_n.contr.Idx) :
    (dot_S8000x4_S4x9_S8000x9_1_0_0_1_n_n.lhsIdx i q 1).val = (q ⟨0, by decide⟩).val :=
  dot_S8000x4_S4x9_S8000x9_1_0_0_1_n_n.lhsIdx_val_of_single rfl i q
theorem rhs4_0 (i : S8000x9.Idx) (q : dot_S8000x4_S4x9_S8000x9_1_0_0_1_n_n.contr.Idx) :
    (dot_S8000x4_S4x9_S8000x9_1_0_0_1_n_n.rhsIdx i q 0).val = (q ⟨0, by decide⟩).val :=
  dot_S8000x4_S4x9_S8000x9_1_0_0_1_n_n.rhsIdx_val_of_single rfl i q
theorem rhs4_1 (i : S8000x9.Idx) (q : dot_S8000x4_S4x9_S8000x9_1_0_0_1_n_n.contr.Idx) :
    (dot_S8000x4_S4x9_S8000x9_1_0_0_1_n_n.rhsIdx i q 1).val = (i 1).val := by
  unfold DotDims.rhsIdx
  rw [dif_neg (show ¬(1 : Fin S4x9.rank) ∈ dot_S8000x4_S4x9_S8000x9_1_0_0_1_n_n.rhsBatch by decide), dif_pos (show (1 : Fin S4x9.rank) ∈ dot_S8000x4_S4x9_S8000x9_1_0_0_1_n_n.rhsNonContracting by decide)]
  rfl

/-- Into a zero accumulator, the matrix unit's product at (r, o) is the sum over the 4 shared positions of the row's entry
    times the column's entry. -/
theorem matmul4_at (x : FVec Ideal S8000x4 .bf16) (w : FVec Ideal S4x9 .bf16) (r : Fin 8000) (o : Fin 9) :
    matmul dot_S8000x4_S4x9_S8000x9_1_0_0_1_n_n none x w (constant S8000x9 .f32 0x00000000#32) (ix2 r o)
      = ∑ k : Fin 4, x (ix2 r k) * w (ix2 k o) := by
  simp only [matmul]
  rw [Ideal.matmul_constant_zero_apply, ← Equiv.sum_comp (contrEquiv1 dot_S8000x4_S4x9_S8000x9_1_0_0_1_n_n 4 rfl rfl).symm]
  refine Finset.sum_congr rfl fun k _ => ?_
  have hk := contrEquiv1_symm_val dot_S8000x4_S4x9_S8000x9_1_0_0_1_n_n 4 rfl rfl k
  have el : dot_S8000x4_S4x9_S8000x9_1_0_0_1_n_n.lhsIdx (ix2 r o) ((contrEquiv1 dot_S8000x4_S4x9_S8000x9_1_0_0_1_n_n 4 rfl rfl).symm k) = ix2 r k := funext fun a => Fin.ext (by
    match a with
    | ⟨0, _⟩ => exact lhs4_0 _ _
    | ⟨1, _⟩ => exact (lhs4_1 _ _).trans hk)
  have er : dot_S8000x4_S4x9_S8000x9_1_0_0_1_n_n.rhsIdx (ix2 r o) ((contrEquiv1 dot_S8000x4_S4x9_S8000x9_1_0_0_1_n_n 4 rfl rfl).symm k) = ix2 k o := funext fun a => Fin.ext (by
    match a with
    | ⟨0, _⟩ => exact (rhs4_0 _ _).trans hk
    | ⟨1, _⟩ => exact rhs4_1 _ _)
  rw [el, er]

/-! ### The product of an 8000 by 12 block with a 12 by 9 block -/

theorem lhs12_0 (i : S8000x9.Idx) (q : dot_S8000x12_S12x9_S8000x9_1_0_0_1_n_n.contr.Idx) :
    (dot_S8000x12_S12x9_S8000x9_1_0_0_1_n_n.lhsIdx i q 0).val = (i 0).val := by
  unfold DotDims.lhsIdx
  rw [dif_neg (show ¬(0 : Fin S8000x12.rank) ∈ dot_S8000x12_S12x9_S8000x9_1_0_0_1_n_n.lhsBatch by decide), dif_pos (show (0 : Fin S8000x12.rank) ∈ dot_S8000x12_S12x9_S8000x9_1_0_0_1_n_n.lhsNonContracting by decide)]
  rfl
theorem lhs12_1 (i : S8000x9.Idx) (q : dot_S8000x12_S12x9_S8000x9_1_0_0_1_n_n.contr.Idx) :
    (dot_S8000x12_S12x9_S8000x9_1_0_0_1_n_n.lhsIdx i q 1).val = (q ⟨0, by decide⟩).val :=
  dot_S8000x12_S12x9_S8000x9_1_0_0_1_n_n.lhsIdx_val_of_single rfl i q
theorem rhs12_0 (i : S8000x9.Idx) (q : dot_S8000x12_S12x9_S8000x9_1_0_0_1_n_n.contr.Idx) :
    (dot_S8000x12_S12x9_S8000x9_1_0_0_1_n_n.rhsIdx i q 0).val = (q ⟨0, by decide⟩).val :=
  dot_S8000x12_S12x9_S8000x9_1_0_0_1_n_n.rhsIdx_val_of_single rfl i q
theorem rhs12_1 (i : S8000x9.Idx) (q : dot_S8000x12_S12x9_S8000x9_1_0_0_1_n_n.contr.Idx) :
    (dot_S8000x12_S12x9_S8000x9_1_0_0_1_n_n.rhsIdx i q 1).val = (i 1).val := by
  unfold DotDims.rhsIdx
  rw [dif_neg (show ¬(1 : Fin S12x9.rank) ∈ dot_S8000x12_S12x9_S8000x9_1_0_0_1_n_n.rhsBatch by decide), dif_pos (show (1 : Fin S12x9.rank) ∈ dot_S8000x12_S12x9_S8000x9_1_0_0_1_n_n.rhsNonContracting by decide)]
  rfl

/-- Into a zero accumulator, the matrix unit's product at (r, o) is the sum over the 12 shared positions of the row's entry
    times the column's entry. -/
theorem matmul12_at (x : FVec Ideal S8000x12 .bf16) (w : FVec Ideal S12x9 .bf16) (r : Fin 8000) (o : Fin 9) :
    matmul dot_S8000x12_S12x9_S8000x9_1_0_0_1_n_n none x w (constant S8000x9 .f32 0x00000000#32) (ix2 r o)
      = ∑ k : Fin 12, x (ix2 r k) * w (ix2 k o) := by
  simp only [matmul]
  rw [Ideal.matmul_constant_zero_apply, ← Equiv.sum_comp (contrEquiv1 dot_S8000x12_S12x9_S8000x9_1_0_0_1_n_n 12 rfl rfl).symm]
  refine Finset.sum_congr rfl fun k _ => ?_
  have hk := contrEquiv1_symm_val dot_S8000x12_S12x9_S8000x9_1_0_0_1_n_n 12 rfl rfl k
  have el : dot_S8000x12_S12x9_S8000x9_1_0_0_1_n_n.lhsIdx (ix2 r o) ((contrEquiv1 dot_S8000x12_S12x9_S8000x9_1_0_0_1_n_n 12 rfl rfl).symm k) = ix2 r k := funext fun a => Fin.ext (by
    match a with
    | ⟨0, _⟩ => exact lhs12_0 _ _
    | ⟨1, _⟩ => exact (lhs12_1 _ _).trans hk)
  have er : dot_S8000x12_S12x9_S8000x9_1_0_0_1_n_n.rhsIdx (ix2 r o) ((contrEquiv1 dot_S8000x12_S12x9_S8000x9_1_0_0_1_n_n 12 rfl rfl).symm k) = ix2 k o := funext fun a => Fin.ext (by
    match a with
    | ⟨0, _⟩ => exact (rhs12_0 _ _).trans hk
    | ⟨1, _⟩ => exact rhs12_1 _ _)
  rw [el, er]

/-! ### The one-hot matrices -/

/-- A type column compared with the class numbers 0 … 3 along the row, the one-bit results widened and converted to a
    float: entry (r, k) is one where the column's word at row r is k, zero elsewhere. (Narrowing the float's format
    changes nothing over the extended reals.) -/
theorem hot4_at (v : IVec S8000x3 32) (col : Nat) (hc : col < 3) (hs : S8000x3.Slices ![0, col] S8000x1) (r : Fin 8000) (k : Fin 4) :
    (truncf .bf16 (sitofp (F := Ideal) .f32 (extui 32 (cmpi .eq (broadcastTo S8000x4 (extractStridedSlice S8000x1 ![0, col] v hs) broadcasts_S8000x1_S8000x4)
        (iota .tc S8000x4 32 [1] iota_S8000x4_d1_w32)) natLt_1_32)) bitsLt_bf16_f32 : FVec Ideal S8000x4 .bf16) (ix2 r k)
      = Cert.EdgeMap.hot (v (ix2 r (⟨col, hc⟩ : Fin 3))) k.val := by
  show FloatOps.sitofp (F := Ideal) .f32 ((IntOp.cmpi .eq
      (broadcastTo S8000x4 (extractStridedSlice S8000x1 ![0, col] v hs) broadcasts_S8000x1_S8000x4 (ix2 r k))
      (iota .tc S8000x4 32 [1] iota_S8000x4_d1_w32 (ix2 r k))).setWidth 32) = _
  rw [broadcastTo_apply _ broadcasts_S8000x1_S8000x4 (ix2 r k) (ix2 r (0 : Fin 1)) (fun a => match a with
      | ⟨0, _⟩ => by show r.val = if (8000 : Nat) = 1 then 0 else r.val; rw [if_neg (by decide)]
      | ⟨1, _⟩ => by show 0 = if (1 : Nat) = 1 then 0 else k.val; rw [if_pos rfl]),
    extractStridedSlice_apply _ v hs (ix2 r (0 : Fin 1)) (ix2 r (⟨col, hc⟩ : Fin 3)) (fun a => match a with
      | ⟨0, _⟩ => by show r.val = 0 + r.val; omega
      | ⟨1, _⟩ => by show col = col + 0; omega),
    iota_single_apply]
  show (((((IntOp.cmpi .eq (v (ix2 r (⟨col, hc⟩ : Fin 3))) (BitVec.ofNat 32 k.val)).setWidth 32).toInt : ℝ)) : EReal) = _
  unfold Cert.EdgeMap.hot IntOp.cmpi
  by_cases h : v (ix2 r (⟨col, hc⟩ : Fin 3)) = BitVec.ofNat 32 k.val
  · rw [if_pos h, show (v (ix2 r (⟨col, hc⟩ : Fin 3)) == BitVec.ofNat 32 k.val) = true from beq_iff_eq.mpr h]
    have e1 : (BitVec.setWidth 32 (BitVec.ofBool true)).toInt = 1 := by decide
    rw [e1]; norm_num
  · rw [if_neg h, show (v (ix2 r (⟨col, hc⟩ : Fin 3)) == BitVec.ofNat 32 k.val) = false from beq_eq_false_iff_ne.mpr h]
    norm_num

/-- A type column compared with the class numbers 0 … 11 along the row, the one-bit results widened and converted to a
    float: entry (r, k) is one where the column's word at row r is k, zero elsewhere. (Narrowing the float's format
    changes nothing over the extended reals.) -/
theorem hot12_at (v : IVec S8000x3 32) (col : Nat) (hc : col < 3) (hs : S8000x3.Slices ![0, col] S8000x1) (r : Fin 8000) (k : Fin 12) :
    (truncf .bf16 (sitofp (F := Ideal) .f32 (extui 32 (cmpi .eq (broadcastTo S8000x12 (extractStridedSlice S8000x1 ![0, col] v hs) broadcasts_S8000x1_S8000x12)
        (iota .tc S8000x12 32 [1] iota_S8000x12_d1_w32)) natLt_1_32)) bitsLt_bf16_f32 : FVec Ideal S8000x12 .bf16) (ix2 r k)
      = Cert.EdgeMap.hot (v (ix2 r (⟨col, hc⟩ : Fin 3))) k.val := by
  show FloatOps.sitofp (F := Ideal) .f32 ((IntOp.cmpi .eq
      (broadcastTo S8000x12 (extractStridedSlice S8000x1 ![0, col] v hs) broadcasts_S8000x1_S8000x12 (ix2 r k))
      (iota .tc S8000x12 32 [1] iota_S8000x12_d1_w32 (ix2 r k))).setWidth 32) = _
  rw [broadcastTo_apply _ broadcasts_S8000x1_S8000x12 (ix2 r k) (ix2 r (0 : Fin 1)) (fun a => match a with
      | ⟨0, _⟩ => by show r.val = if (8000 : Nat) = 1 then 0 else r.val; rw [if_neg (by decide)]
      | ⟨1, _⟩ => by show 0 = if (1 : Nat) = 1 then 0 else k.val; rw [if_pos rfl]),
    extractStridedSlice_apply _ v hs (ix2 r (0 : Fin 1)) (ix2 r (⟨col, hc⟩ : Fin 3)) (fun a => match a with
      | ⟨0, _⟩ => by show r.val = 0 + r.val; omega
      | ⟨1, _⟩ => by show col = col + 0; omega),
    iota_single_apply]
  show (((((IntOp.cmpi .eq (v (ix2 r (⟨col, hc⟩ : Fin 3))) (BitVec.ofNat 32 k.val)).setWidth 32).toInt : ℝ)) : EReal) = _
  unfold Cert.EdgeMap.hot IntOp.cmpi
  by_cases h : v (ix2 r (⟨col, hc⟩ : Fin 3)) = BitVec.ofNat 32 k.val
  · rw [if_pos h, show (v (ix2 r (⟨col, hc⟩ : Fin 3)) == BitVec.ofNat 32 k.val) = true from beq_iff_eq.mpr h]
    have e1 : (BitVec.setWidth 32 (BitVec.ofBool true)).toInt = 1 := by decide
    rw [e1]; norm_num
  · rw [if_neg h, show (v (ix2 r (⟨col, hc⟩ : Fin 3)) == BitVec.ofNat 32 k.val) = false from beq_eq_false_iff_ne.mpr h]
    norm_num

/-! ### The stored entry -/

/-- Entry (r, o) of the block a grid point stores: the hyperbolic tangent of the five sums, added left to right — the
    source rows against their weights, the destination rows against theirs, and the three one-hot codes against theirs. -/
theorem store_at (v0 v2 : FVec Ideal S8000x64 .bf16) (v4 : IVec S8000x3 32) (v26 v29 : FVec Ideal S64x9 .bf16)
    (v33 v37 : FVec Ideal S4x9 .bf16) (v41 : FVec Ideal S12x9 .bf16) (r : Fin 8000) (o : Fin 9) :
    k0_pay1 (F := Ideal) (k0_pay3 v4) (k0_pay4 v0 v2 v4 v26 v29 v33 v37) v41 (ix2 r o)
      = Ideal.tanh (((((∑ k : Fin 64, v0 (ix2 r k) * v26 (ix2 k o))
          + ∑ k : Fin 64, v2 (ix2 r k) * v29 (ix2 k o))
          + ∑ k : Fin 4, Cert.EdgeMap.hot (v4 (ix2 r (0 : Fin 3))) k.val * v33 (ix2 k o))
          + ∑ k : Fin 4, Cert.EdgeMap.hot (v4 (ix2 r (1 : Fin 3))) k.val * v37 (ix2 k o))
          + ∑ k : Fin 12, Cert.EdgeMap.hot (v4 (ix2 r (2 : Fin 3))) k.val * v41 (ix2 k o)) := by
  unfold k0_pay1 k0_pay3 k0_pay4 k0_pay2
  dsimp only
  simp only [shapeCast_self]
  show Ideal.tanh (_ + _ + _ + _ + _) = _
  rw [matmul64_at, matmul64_at, matmul4_at, matmul4_at, matmul12_at]
  simp only [hot4_at v4 0 (by decide), hot4_at v4 1 (by decide), hot12_at v4 2 (by decide)]
  rfl

end Cert.KernelIdeal.Block

end
-- ==== Proof.LibNary3.lean ====
/-
  A host operation over a literal family of three operand buffers (a concatenation of three arrays) writes, at its result
  buffer, its function of the three operands' contents, each read at its own buffer.
-/
import Idealize.ShloMosaic.Lib.StableHlo.Run

noncomputable section

namespace Cert.LibNary3

open Idealize.ShloMosaic Idealize.ShloMosaic.StableHlo

variable {τ : Topo} {sig : RefSig} {Val : EltTy → Type}
variable {x a b y : Ref sig .tc}

/-- The result of a three-operand host operation at its own result buffer: the operation's function applied to the family
    whose members are the contents of the first, the second and the third operand buffer. Stated with each operand at its own
    literal buffer, so that what each operand holds can be rewritten further. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3

end
-- ==== Proof.LibRowGather.lean ====
/-
  Gathering rows of a table, and gathering single words of a vector, by a column of start indices.

  Both operations read, for result row e, the start index at (e, 0) as a signed integer and clamp it into the table: a
  negative index reads row 0, an index past the end reads the last row. The row gather then returns that row of the table,
  column by column; the word gather returns that entry of the vector. So a row gather of a table whose rows are a function of
  a vector's entries, and a word gather of the vector itself, by the same start indices, look at the same clamped row.
-/
import Idealize.ShloMosaic.PureOps.Ideal
import Idealize.ShloMosaic.Lib.ValueIdx

noncomputable section

namespace Cert.LibRowGather

open Idealize.ShloMosaic Idealize.ShloMosaic.ValueIdx

variable {α : Type}

/-- The table row that the start index of result row `e` selects: the word at (e, 0) read signed and clamped into
    `[0, N − 1]`. -/
def clampRow {N E w : Nat} (hN : 0 < N) (I : IVec ⟨2, ![E, 1]⟩ w) (e : Fin E) : Fin N :=
  ⟨min (I (ix2 e (⟨0, Nat.one_pos⟩ : Fin 1))).toInt.toNat (N - 1), by omega⟩

/-- The dimension numbers of a row gather: table `[N, C]`, start indices `[E, 1]`, result `[E, C]`. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A row gather at (e, k): the table at the clamped row, column k. -/
theorem gather_rows_clamped {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (I : IVec ⟨2, ![E, 1]⟩ w) (e : Fin E) (k : Fin C) :
    Host.gather (rowDims N C E wf) x I (ix2 e k) = x (ix2 (clampRow hN I e) k) := by
  -- axis 0 is collapsed and in the start index map: the clamped start, no offset
  have h0 : (rowDims N C E wf).start (ix2 e k) I 0 + (rowDims N C E wf).batchCoord (ix2 e k) 0
      + (rowDims N C E wf).offCoord (ix2 e k) 0 = (clampRow hN I e).val := by
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    -- the start index is read at (e, 0): the result's batch coordinate, and component 0 on the index vector's axis
    have hsi : (rowDims N C E wf).siIdx (ix2 e k) ⟨List.idxOf (0 : Fin 2) (rowDims N C E wf).startIndexMap,
        List.idxOf_lt_length_iff.2 (List.mem_singleton.mpr rfl)⟩ = ix2 e (⟨0, Nat.one_pos⟩ : Fin 1) := by
      funext b; refine Fin.ext ?_
      match b with
      | ⟨0, _⟩ => rfl
      | ⟨1, _⟩ => rfl
    rw [hsi]
    rfl
  -- axis 1 is kept and outside the start index map: start 0, the offset is the result's column
  have h1 : (rowDims N C E wf).start (ix2 e k) I 1 + (rowDims N C E wf).batchCoord (ix2 e k) 1
      + (rowDims N C E wf).offCoord (ix2 e k) 1 = k.val := by
    rw [GatherDims.batchCoord_eq_zero _ _ _ List.not_mem_nil]
    have hnot : (1 : Fin 2) ∉ (rowDims N C E wf).startIndexMap := by
      show (1 : Fin 2) ∉ [(0 : Fin 2)]
      decide
    have hk : (1 : Fin 2) ∈ (rowDims N C E wf).sKept :=
      (GatherDims.mem_sKept _ _).mpr ⟨by show (1 : Fin 2) ∉ [(0 : Fin 2)]; decide, List.not_mem_nil⟩
    unfold GatherDims.start
    rw [dif_neg hnot]
    unfold GatherDims.offCoord
    rw [dif_pos hk]
    simp only [Nat.zero_add]
    rfl
  unfold Host.gather
  congr 1
  funext a
  refine Fin.ext ?_
  match a with
  | ⟨0, _⟩ => exact h0
  | ⟨1, _⟩ => exact h1

/-- The dimension numbers of a word gather: vector `[N]`, start indices `[E, 1]`, result `[E]`. -/
abbrev wordDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A word gather at e: the vector at the clamped row. -/
theorem gather_words_clamped {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (I : IVec ⟨2, ![E, 1]⟩ w) (e : Fin E) :
    Host.gather (wordDims N E wf) x I (ix1 e) = x (ix1 (clampRow hN I e)) := by
  -- the one operand axis is collapsed and in the start index map: the clamped start, no offset
  have h0 : (wordDims N E wf).start (ix1 e) I 0 + (wordDims N E wf).batchCoord (ix1 e) 0
      + (wordDims N E wf).offCoord (ix1 e) 0 = (clampRow hN I e).val := by
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 1) ∈ (wordDims N E wf).startIndexMap from List.mem_singleton.mpr rfl)]
    -- the start index is read at (e, 0)
    have hsi : (wordDims N E wf).siIdx (ix1 e) ⟨List.idxOf (0 : Fin 1) (wordDims N E wf).startIndexMap,
        List.idxOf_lt_length_iff.2 (List.mem_singleton.mpr rfl)⟩ = ix2 e (⟨0, Nat.one_pos⟩ : Fin 1) := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0

end Cert.LibRowGather

end
-- ==== Proof.KernelEntry.lean ====
/-
  What the launched arrays hold when the launch begins.

  The sixty operations before the launch build the kernel's eight operands out of the five arguments: the two gathered
  feature arrays (rows of the node features at the clamped source and destination indices), the three type columns (the
  node-type word at the clamped source row, at the clamped destination row, and the edge-type word), and five pieces of the
  weight matrix, each a run of columns, transposed. The index computations are the same operations the reference applies, so
  the gathered arrays are the reference's own gathered arrays, and the type columns are word gathers by the reference's own
  start indices. A change of float format is the identity over the extended reals, so it drops out.
-/
import proofs.«132518_j31842887533251_1_alg».proof.Proof.AroundIdeal
import proofs.«132518_j31842887533251_1_alg».proof.Proof.Gen.ReferenceIdeal.Read
import proofs.«132518_j31842887533251_1_alg».proof.Proof.LibNary3
import proofs.«132518_j31842887533251_1_alg».proof.Proof.LibRowGather
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Entry

open Cert.KernelIdeal Cert.KernelIdeal.Gen Cert.KernelIdeal.Around
open Idealize.ShloMosaic Idealize.ShloMosaic.TcCoe Idealize.ShloMosaic.ValueIdx Idealize.SL.Sem
open Cert.LibRowGather

/-- A three-operand operation's result at its own array, each operand read at its own array (restated so that one rewriting pass can use it). -/
theorem nary3_result' {τ' : Topo} {sig' : RefSig} {Val : EltTy → Type} {x a b y : Ref sig' .tc}
    (f : ((k : Fin 3) → ((![x, a, b] : Fin 3 → Ref sig' .tc) k).ty.Contents Val) → y.ty.Contents Val) (hxs hy)
    (F : Valuation τ' sig' Val) :
    (StableHlo.nary (τ := τ') ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  Cert.LibNary3.nary3_result f hxs hy F

/-- Rewrites, in one pass, what a stretch of array operations leaves in one array, down to the operations' functions applied
    to the initial contents. -/
macro "host_results" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result', Idealize.ShloMosaic.StableHlo.ternary_result', Idealize.ShloMosaic.StableHlo.quaternary_result', Idealize.ShloMosaic.StableHlo.reshape_result', nary3_result', Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne', Idealize.ShloMosaic.StableHlo.ternary_result_ne', Idealize.ShloMosaic.StableHlo.quaternary_result_ne', Idealize.ShloMosaic.StableHlo.reshape_result_ne', Idealize.ShloMosaic.StableHlo.nary_result_ne', Idealize.ShloMosaic.StableHlo.unaryIndexed_result_ne', Idealize.ShloMosaic.StableHlo.binaryIndexed_result_ne']))

variable (m : (ℓ : Loc nD τ sig) → Buf (Elt Ideal) ℓ)

/-! ## The gathered feature arrays are the reference's -/

set_option maxHeartbeats 4000000 in
/-- The gathered source rows the kernel is launched on are the reference's gathered source rows. -/
theorem entry_src (c : Dev nD) : (V m c main_v11 : S1600000x64.Idx → Elt Ideal .bf16)
    = Cert.ReferenceIdeal.Read.val_main_v10 (F := Ideal) (m ((c : Thread nD τ).loc main_arg0)) (m ((c : Thread nD τ).loc main_arg1)) := by
  show StableHlo.after hostOps0 (fun b => m (c, b)) (Proc.devRef .tc main_v11) = _
  host_results
  rfl

set_option maxHeartbeats 4000000 in
/-- The gathered destination rows likewise. -/
theorem entry_dst (c : Dev nD) : (V m c main_v18 : S1600000x64.Idx → Elt Ideal .bf16)
    = Cert.ReferenceIdeal.Read.val_main_v17 (F := Ideal) (m ((c : Thread nD τ).loc main_arg0)) (m ((c : Thread nD τ).loc main_arg1)) := by
  show StableHlo.after hostOps0 (fun b => m (c, b)) (Proc.devRef .tc main_v18) = _
  host_results
  rfl

/-! ## The three type columns -/

set_option maxHeartbeats 4000000 in
/-- The 1600000 by 3 array of type words: the node types gathered by the reference's source start indices, the node types
    gathered by its destination start indices, and the edge types, each as one column, side by side. -/
theorem entry_types (c : Dev nD) : (V m c main_v36 : S1600000x3.Idx → Elt Ideal .i32)
    = concatenate S1600000x3 1
        [⟨S1600000x1, broadcastInDim S1600000x1 ![0] bcast_S1600000_S1600000x1_0
            (Host.gather gather_S100000_S1600000x1_S1600000_n_0_n_n_0_1_1 (m ((c : Thread nD τ).loc main_arg3)) (Cert.ReferenceIdeal.Read.val_main_v24 (F := Ideal) (m ((c : Thread nD τ).loc main_arg1))))⟩,
         ⟨S1600000x1, broadcastInDim S1600000x1 ![0] bcast_S1600000_S1600000x1_0
            (Host.gather gather_S100000_S1600000x1_S1600000_n_0_n_n_0_1_1 (m ((c : Thread nD τ).loc main_arg3)) (Cert.ReferenceIdeal.Read.val_main_v31 (F := Ideal) (m ((c : Thread nD τ).loc main_arg1))))⟩,
         ⟨S1600000x1, broadcastInDim S1600000x1 ![0] bcast_S1600000_S1600000x1_0 (m ((c : Thread nD τ).loc main_arg2))⟩]
        concatenates_S1600000x1_S1600000x1_S1600000x1_S1600000x3_d1 := by
  show StableHlo.after hostOps0 (fun b => m (c, b)) (Proc.devRef .tc main_v36) = _
  host_results
  rfl

/-- A column array made from a vector reads, at (e, 0), the vector at e. -/
theorem column_at {α : Type} (x : S1600000.Idx → α) (e : Fin 1600000) :
    broadcastInDim S1600000x1 ![0] bcast_S1600000_S1600000x1_0 x (ix2 e (0 : Fin 1)) = x (ix1 e) :=
  broadcastInDim_apply _ bcast_S1600000_S1600000x1_0 x (ix2 e (0 : Fin 1)) (ix1 e) (fun a => match a with
    | ⟨0, _⟩ => by show e.val = if (1600000 : Nat) = 1 then 0 else e.val; rw [if_neg (by decide)])

/-- Column `j` of the three side-by-side columns is piece `j` at (e, 0). -/
theorem types_piece (x0 x1 x2 : S1600000x1.Idx → Elt Ideal .i32) (e : Fin 1600000) (j : Fin 3)
    (p : S1600000x1.Idx → Elt Ideal .i32) (hp : [(⟨S1600000x1, x0⟩ : (s : Shape) × (s.Idx → Elt Ideal .i32)), ⟨S1600000x1, x1⟩, ⟨S1600000x1, x2⟩][j.val]'(by simpa using j.isLt) = ⟨S1600000x1, p⟩) :
    concatenate S1600000x3 1 [⟨S1600000x1, x0⟩, ⟨S1600000x1, x1⟩, ⟨S1600000x1, x2⟩]
      concatenates_S1600000x1_S1600000x1_S1600000x1_S1600000x3_d1 (ix2 e j) = p (ix2 e (0 : Fin 1)) := by
  refine concatenate_apply_piece (1 : Fin S1600000x3.rank) _ _ (ix2 e j) j.val (by simpa using j.isLt) S1600000x1 p hp rfl j.val ?_ (ix2 e (0 : Fin 1)) ?_ ?_
  · match j with
    | ⟨0, _⟩ => rfl
    | ⟨1, _⟩ => rfl
    | ⟨2, _⟩ => rfl
  · intro b hb
    match b with
    | ⟨0, _⟩ => rfl
    | ⟨1, _⟩ => exact absurd rfl hb
  · show j.val + 0 = j.val
    omega

/-- The first type column at edge `e`: the node-type word at the row the reference's source start index selects. -/
theorem types_src (c : Dev nD) (e : Fin 1600000) :
    (V m c main_v36 : S1600000x3.Idx → Elt Ideal .i32) (ix2 e (0 : Fin 3))
      = (m ((c : Thread nD τ).loc main_arg3)) (ix1 (clampRow (N := 100000) (by decide) (Cert.ReferenceIdeal.Read.val_main_v24 (F := Ideal) (m ((c : Thread nD τ).loc main_arg1))) e)) := by
  rw [entry_types, types_piece _ _ _ e 0 _ rfl, column_at]
  exact gather_words_clamped (N := 100000) (E := 1600000) (by decide) _ _ _ e

/-- The second type column: the node-type word at the row the reference's destination start index selects. -/
theorem types_dst (c : Dev nD) (e : Fin 1600000) :
    (V m c main_v36 : S1600000x3.Idx → Elt Ideal .i32) (ix2 e (1 : Fin 3))
      = (m ((c : Thread nD τ).loc main_arg3)) (ix1 (clampRow (N := 100000) (by decide) (Cert.ReferenceIdeal.Read.val_main_v31 (F := Ideal) (m ((c : Thread nD τ).loc main_arg1))) e)) := by
  rw [entry_types, types_piece _ _ _ e 1 _ rfl, column_at]
  exact gather_words_clamped (N := 100000) (E := 1600000) (by decide) _ _ _ e

/-- The third type column: the edge's own type word. -/
theorem types_edge (c : Dev nD) (e : Fin 1600000) :
    (V m c main_v36 : S1600000x3.Idx → Elt Ideal .i32) (ix2 e (2 : Fin 3)) = (m ((c : Thread nD τ).loc main_arg2)) (ix1 e) := by
  rw [entry_types, types_piece _ _ _ e 2 _ rfl, column_at]

/-! ## The five transposed runs of weight columns -/

set_option maxHeartbeats 4000000 in
/-- The source-feature weights: columns 0 … of the weight matrix, transposed. -/
theorem entry_w39 (c : Dev nD) : (V m c main_v39 : S64x9.Idx → Elt Ideal .bf16)
    = (truncf (F := Ideal) .bf16 (transpose S64x9 [1, 0] (extractStridedSlice S9x64 ![0, 0] (m ((c : Thread nD τ).loc main_arg4)) slices_S9x148_S9x64_0_0) transposes_S9x64_S64x9_1_0) bitsLt_bf16_f32 : S64x9.Idx → Elt Ideal .bf16) := by
  show StableHlo.after hostOps0 (fun b => m (c, b)) (Proc.devRef .tc main_v39) = _
  host_results

/-- Entry (k, o) of it is the weight matrix at row o, column 0 + k. -/
theorem w39_at (c : Dev nD) (k : Fin 64) (o : Fin 9) :
    (V m c main_v39 : S64x9.Idx → Elt Ideal .bf16) (ix2 k o)
      = (m ((c : Thread nD τ).loc main_arg4)) (ix2 o (⟨k.val, by omega⟩ : Fin 148)) := by
  rw [entry_w39]
  show transpose S64x9 [1, 0] (extractStridedSlice S9x64 ![0, 0] (m ((c : Thread nD τ).loc main_arg4)) slices_S9x148_S9x64_0_0) transposes_S9x64_S64x9_1_0 (ix2 k o) = _
  rw [transpose_ix2_apply, slice2_axis1_apply 0 _ slices_S9x148_S9x64_0_0 o k (⟨k.val, by omega⟩ : Fin 148) (Nat.zero_add _).symm]

set_option maxHeartbeats 4000000 in
/-- The destination-feature weights: columns 64 … of the weight matrix, transposed. -/
theorem entry_w42 (c : Dev nD) : (V m c main_v42 : S64x9.Idx → Elt Ideal .bf16)
    = (truncf (F := Ideal) .bf16 (transpose S64x9 [1, 0] (extractStridedSlice S9x64 ![0, 64] (m ((c : Thread nD τ).loc main_arg4)) slices_S9x148_S9x64_0_64) transposes_S9x64_S64x9_1_0) bitsLt_bf16_f32 : S64x9.Idx → Elt Ideal .bf16) := by
  show StableHlo.after hostOps0 (fun b => m (c, b)) (Proc.devRef .tc main_v42) = _
  host_results

/-- Entry (k, o) of it is the weight matrix at row o, column 64 + k. -/
theorem w42_at (c : Dev nD) (k : Fin 64) (o : Fin 9) :
    (V m c main_v42 : S64x9.Idx → Elt Ideal .bf16) (ix2 k o)
      = (m ((c : Thread nD τ).loc main_arg4)) (ix2 o (⟨64 + k.val, by omega⟩ : Fin 148)) := by
  rw [entry_w42]
  show transpose S64x9 [1, 0] (extractStridedSlice S9x64 ![0, 64] (m ((c : Thread nD τ).loc main_arg4)) slices_S9x148_S9x64_0_64) transposes_S9x64_S64x9_1_0 (ix2 k o) = _
  rw [transpose_ix2_apply, slice2_axis1_apply 64 _ slices_S9x148_S9x64_0_64 o k (⟨64 + k.val, by omega⟩ : Fin 148) rfl]

set_option maxHeartbeats 4000000 in
/-- The source-type weights: columns 128 … of the weight matrix, transposed. -/
theorem entry_w45 (c : Dev nD) : (V m c main_v45 : S4x9.Idx → Elt Ideal .bf16)
    = (truncf (F := Ideal) .bf16 (transpose S4x9 [1, 0] (extractStridedSlice S9x4 ![0, 128] (m ((c : Thread nD τ).loc main_arg4)) slices_S9x148_S9x4_0_128) transposes_S9x4_S4x9_1_0) bitsLt_bf16_f32 : S4x9.Idx → Elt Ideal .bf16) := by
  show StableHlo.after hostOps0 (fun b => m (c, b)) (Proc.devRef .tc main_v45) = _
  host_results

/-- Entry (k, o) of it is the weight matrix at row o, column 128 + k. -/
theorem w45_at (c : Dev nD) (k : Fin 4) (o : Fin 9) :
    (V m c main_v45 : S4x9.Idx → Elt Ideal .bf16) (ix2 k o)
      = (m ((c : Thread nD τ).loc main_arg4)) (ix2 o (⟨128 + k.val, by omega⟩ : Fin 148)) := by
  rw [entry_w45]
  show transpose S4x9 [1, 0] (extractStridedSlice S9x4 ![0, 128] (m ((c : Thread nD τ).loc main_arg4)) slices_S9x148_S9x4_0_128) transposes_S9x4_S4x9_1_0 (ix2 k o) = _
  rw [transpose_ix2_apply, slice2_axis1_apply 128 _ slices_S9x148_S9x4_0_128 o k (⟨128 + k.val, by omega⟩ : Fin 148) rfl]

set_option maxHeartbeats 4000000 in
/-- The destination-type weights: columns 132 … of the weight matrix, transposed. -/
theorem entry_w48 (c : Dev nD) : (V m c main_v48 : S4x9.Idx → Elt Ideal .bf16)
    = (truncf (F := Ideal) .bf16 (transpose S4x9 [1, 0] (extractStridedSlice S9x4 ![0, 132] (m ((c : Thread nD τ).loc main_arg4)) slices_S9x148_S9x4_0_132) transposes_S9x4_S4x9_1_0) bitsLt_bf16_f32 : S4x9.Idx → Elt Ideal .bf16) := by
  show StableHlo.after hostOps0 (fun b => m (c, b)) (Proc.devRef .tc main_v48) = _
  host_results

/-- Entry (k, o) of it is the weight matrix at row o, column 132 + k. -/
theorem w48_at (c : Dev nD) (k : Fin 4) (o : Fin 9) :
    (V m c main_v48 : S4x9.Idx → Elt Ideal .bf16) (ix2 k o)
      = (m ((c : Thread nD τ).loc main_arg4)) (ix2 o (⟨132 + k.val, by omega⟩ : Fin 148)) := by
  rw [entry_w48]
  show transpose S4x9 [1, 0] (extractStridedSlice S9x4 ![0, 132] (m ((c : Thread nD τ).loc main_arg4)) slices_S9x148_S9x4_0_132) transposes_S9x4_S4x9_1_0 (ix2 k o) = _
  rw [transpose_ix2_apply, slice2_axis1_apply 132 _ slices_S9x148_S9x4_0_132 o k (⟨132 + k.val, by omega⟩ : Fin 148) rfl]

set_option maxHeartbeats 4000000 in
/-- The edge-type weights: columns 136 … of the weight matrix, transposed. -/
theorem entry_w51 (c : Dev nD) : (V m c main_v51 : S12x9.Idx → Elt Ideal .bf16)
    = (truncf (F := Ideal) .bf16 (transpose S12x9 [1, 0] (extractStridedSlice S9x12 ![0, 136] (m ((c : Thread nD τ).loc main_arg4)) slices_S9x148_S9x12_0_136) transposes_S9x12_S12x9_1_0) bitsLt_bf16_f32 : S12x9.Idx → Elt Ideal .bf16) := by
  show StableHlo.after hostOps0 (fun b => m (c, b)) (Proc.devRef .tc main_v51) = _
  host_results

/-- Entry (k, o) of it is the weight matrix at row o, column 136 + k. -/
theorem w51_at (c : Dev nD) (k : Fin 12) (o : Fin 9) :
    (V m c main_v51 : S12x9.Idx → Elt Ideal .bf16) (ix2 k o)
      = (m ((c : Thread nD τ).loc main_arg4)) (ix2 o (⟨136 + k.val, by omega⟩ : Fin 148)) := by
  rw [entry_w51]
  show transpose S12x9 [1, 0] (extractStridedSlice S9x12 ![0, 136] (m ((c : Thread nD τ).loc main_arg4)) slices_S9x148_S9x12_0_136) transposes_S9x12_S12x9_1_0 (ix2 k o) = _
  rw [transpose_ix2_apply, slice2_axis1_apply 136 _ slices_S9x148_S9x12_0_136 o k (⟨136 + k.val, by omega⟩ : Fin 148) rfl]

end Cert.KernelIdeal.Entry

end
-- ==== Proof.KernelValue.lean ====
/-
  The idealized kernel's result as one function of its arguments.

  Grid point t handles edges 8000·t … 8000·t + 7999: the blocks it reads of the two gathered feature arrays and of the type
  columns are rows 8000·t + r of those arrays, the five weight blocks are the whole weight pieces at every point, and the
  block it writes is rows 8000·t + r of the result. The stored entry is the five-sum form of the edge map at edge
  8000·t + r, and the 200 blocks tile the 1600000 rows, so after the launch the result array is the edge map everywhere.
  The final reshape regroups the nine columns of each row as three by three.
-/
import proofs.«132518_j31842887533251_1_alg».proof.Proof.BodyIdeal
import proofs.«132518_j31842887533251_1_alg».proof.Proof.KernelBlock
import proofs.«132518_j31842887533251_1_alg».proof.Proof.KernelEntry
import proofs.«132518_j31842887533251_1_alg».proof.Proof.EdgeMap

set_option maxRecDepth 16384

noncomputable section

open scoped BigOperators

namespace Cert.KernelIdeal.Result

open Cert.KernelIdeal Cert.KernelIdeal.Gen Cert.KernelIdeal.Around Cert.KernelIdeal.Entry
open Idealize.ShloMosaic Idealize.ShloMosaic.TcCoe Idealize.ShloMosaic.ValueIdx Idealize.SL.Sem
open Idealize.ShloMosaic.Pipeline (Dat)
open Cert.LibRowGather

variable (m : (ℓ : Loc nD τ sig) → Buf (Elt Ideal) ℓ) (ρ : Dev nD → PrngReg)

/-- The edge map, in its five-sum form, over the arguments as core `c` holds them: the launch's result array. -/
def G (c : Dev nD) : S1600000x9.Idx → Elt Ideal .f32 := fun i =>
  Cert.EdgeMap.split
    (fun e k => (Cert.ReferenceIdeal.Read.val_main_v10 (F := Ideal) (m ((c : Thread nD τ).loc main_arg0)) (m ((c : Thread nD τ).loc main_arg1)) (ix2 e k) : EReal))
    (fun e k => (Cert.ReferenceIdeal.Read.val_main_v17 (F := Ideal) (m ((c : Thread nD τ).loc main_arg0)) (m ((c : Thread nD τ).loc main_arg1)) (ix2 e k) : EReal))
    (fun e => (m ((c : Thread nD τ).loc main_arg3)) (ix1 (clampRow (N := 100000) (by decide) (Cert.ReferenceIdeal.Read.val_main_v24 (F := Ideal) (m ((c : Thread nD τ).loc main_arg1))) e)))
    (fun e => (m ((c : Thread nD τ).loc main_arg3)) (ix1 (clampRow (N := 100000) (by decide) (Cert.ReferenceIdeal.Read.val_main_v31 (F := Ideal) (m ((c : Thread nD τ).loc main_arg1))) e)))
    (fun e => (m ((c : Thread nD τ).loc main_arg2)) (ix1 e))
    (fun o k => ((m ((c : Thread nD τ).loc main_arg4)) (ix2 o k) : EReal))
    (⟨(i 0).val, (i 0).isLt⟩ : Fin 1600000) (⟨(i 1).val, (i 1).isLt⟩ : Fin 9)

theorem hz : (![0, 0] : Fin 2 → Nat) = fun _ => 0 := funext fun a => by fin_cases a <;> rfl

/-- Where each operand's block sits at grid point t: the three per-edge operands and the result at block row t, the five
    weight pieces always at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_8.index t (0 : Fin 2) = t.val ∧ win0_8.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Edge number 8000·t + r. -/
def edge (t : Fin cfg0.N) (r : Fin 8000) : Fin 1600000 :=
  ⟨t.val * 8000 + r.val, by have h : t.val < 200 := lt_of_lt_of_eq t.isLt N_0; have := r.isLt; omega⟩

/-! ## The blocks a grid point reads -/

/-- Row r of operand 0's block at point t is row 8000·t + r of its array. -/
theorem read0 (c : Dev nD) (t : Fin cfg0.N) (r : Fin 8000) (k : Fin 64) :
    iblk m c 0 t (ix2 r k) = V m c main_v11 (ix2 (edge t r) k) := by
  show V m c main_v11 (((cfg0.win 0).blk t).view.emb (ix2 r k)) = _
  refine congrArg (V m c main_v11) (funext fun a => Fin.ext ?_)
  match a with
  | ⟨0, _⟩ => show win0_0.index t (0 : Fin 2) * 8000 + 1 * r.val = t.val * 8000 + r.val; rw [(idx_facts t).1]; omega
  | ⟨1, _⟩ => show win0_0.index t (1 : Fin 2) * 64 + 1 * k.val = k.val; rw [(idx_facts t).2.1]; omega

/-- Row r of operand 1's block at point t is row 8000·t + r of its array. -/
theorem read1 (c : Dev nD) (t : Fin cfg0.N) (r : Fin 8000) (k : Fin 64) :
    iblk m c 1 t (ix2 r k) = V m c main_v18 (ix2 (edge t r) k) := by
  show V m c main_v18 (((cfg0.win 1).blk t).view.emb (ix2 r k)) = _
  refine congrArg (V m c main_v18) (funext fun a => Fin.ext ?_)
  match a with
  | ⟨0, _⟩ => show win0_1.index t (0 : Fin 2) * 8000 + 1 * r.val = t.val * 8000 + r.val; rw [(idx_facts t).2.2.1]; omega
  | ⟨1, _⟩ => show win0_1.index t (1 : Fin 2) * 64 + 1 * k.val = k.val; rw [(idx_facts t).2.2.2.1]; omega

/-- Row r of operand 2's block at point t is row 8000·t + r of its array. -/
theorem read2 (c : Dev nD) (t : Fin cfg0.N) (r : Fin 8000) (k : Fin 3) :
    iblk m c 2 t (ix2 r k) = V m c main_v36 (ix2 (edge t r) k) := by
  show V m c main_v36 (((cfg0.win 2).blk t).view.emb (ix2 r k)) = _
  refine congrArg (V m c main_v36) (funext fun a => Fin.ext ?_)
  match a with
  | ⟨0, _⟩ => show win0_2.index t (0 : Fin 2) * 8000 + 1 * r.val = t.val * 8000 + r.val; rw [(idx_facts t).2.2.2.2.1]; omega
  | ⟨1, _⟩ => show win0_2.index t (1 : Fin 2) * 3 + 1 * k.val = k.val; rw [(idx_facts t).2.2.2.2.2.1]; omega

/-- Operand 3's block at every point is its whole array. -/
theorem read3 (c : Dev nD) (t : Fin cfg0.N) (k : Fin 64) (o : Fin 9) :
    iblk m c 3 t (ix2 k o) = V m c main_v39 (ix2 k o) := by
  show V m c main_v39 (((cfg0.win 3).blk t).view.emb (ix2 k o)) = _
  refine congrArg (V m c main_v39) (funext fun a => Fin.ext ?_)
  match a with
  | ⟨0, _⟩ => show win0_3.index t (0 : Fin 2) * 64 + 1 * k.val = k.val; rw [(idx_facts t).2.2.2.2.2.2.2.2.1]; omega
  | ⟨1, _⟩ => show win0_3.index t (1 : Fin 2) * 9 + 1 * o.val = o.val; rw [(idx_facts t).2.2.2.2.2.2.2.2.2.1]; omega

/-- Operand 4's block at every point is its whole array. -/
theorem read4 (c : Dev nD) (t : Fin cfg0.N) (k : Fin 64) (o : Fin 9) :
    iblk m c 4 t (ix2 k o) = V m c main_v42 (ix2 k o) := by
  show V m c main_v42 (((cfg0.win 4).blk t).view.emb (ix2 k o)) = _
  refine congrArg (V m c main_v42) (funext fun a => Fin.ext ?_)
  match a with
  | ⟨0, _⟩ => show win0_4.index t (0 : Fin 2) * 64 + 1 * k.val = k.val; rw [(idx_facts t).2.2.2.2.2.2.2.2.2.2.1]; omega
  | ⟨1, _⟩ => show win0_4.index t (1 : Fin 2) * 9 + 1 * o.val = o.val; rw [(idx_facts t).2.2.2.2.2.2.2.2.2.2.2.1]; omega

/-- Operand 5's block at every point is its whole array. -/
theorem read5 (c : Dev nD) (t : Fin cfg0.N) (k : Fin 4) (o : Fin 9) :
    iblk m c 5 t (ix2 k o) = V m c main_v45 (ix2 k o) := by
  show V m c main_v45 (((cfg0.win 5).blk t).view.emb (ix2 k o)) = _
  refine congrArg (V m c main_v45) (funext fun a => Fin.ext ?_)
  match a with
  | ⟨0, _⟩ => show win0_5.index t (0 : Fin 2) * 4 + 1 * k.val = k.val; rw [(idx_facts t).2.2.2.2.2.2.2.2.2.2.2.2.1]; omega
  | ⟨1, _⟩ => show win0_5.index t (1 : Fin 2) * 9 + 1 * o.val = o.val; rw [(idx_facts t).2.2.2.2.2.2.2.2.2.2.2.2.2.1]; omega

/-- Operand 6's block at every point is its whole array. -/
theorem read6 (c : Dev nD) (t : Fin cfg0.N) (k : Fin 4) (o : Fin 9) :
    iblk m c 6 t (ix2 k o) = V m c main_v48 (ix2 k o) := by
  show V m c main_v48 (((cfg0.win 6).blk t).view.emb (ix2 k o)) = _
  refine congrArg (V m c main_v48) (funext fun a => Fin.ext ?_)
  match a with
  | ⟨0, _⟩ => show win0_6.index t (0 : Fin 2) * 4 + 1 * k.val = k.val; rw [(idx_facts t).2.2.2.2.2.2.2.2.2.2.2.2.2.2.1]; omega
  | ⟨1, _⟩ => show win0_6.index t (1 : Fin 2) * 9 + 1 * o.val = o.val; rw [(idx_facts t).2.2.2.2.2.2.2.2.2.2.2.2.2.2.2.1]; omega

/-- Operand 7's block at every point is its whole array. -/
theorem read7 (c : Dev nD) (t : Fin cfg0.N) (k : Fin 12) (o : Fin 9) :
    iblk m c 7 t (ix2 k o) = V m c main_v51 (ix2 k o) := by
  show V m c main_v51 (((cfg0.win 7).blk t).view.emb (ix2 k o)) = _
  refine congrArg (V m c main_v51) (funext fun a => Fin.ext ?_)
  match a with
  | ⟨0, _⟩ => show win0_7.index t (0 : Fin 2) * 12 + 1 * k.val = k.val; rw [(idx_facts t).2.2.2.2.2.2.2.2.2.2.2.2.2.2.2.2.1]; omega
  | ⟨1, _⟩ => show win0_7.index t (1 : Fin 2) * 9 + 1 * o.val = o.val; rw [(idx_facts t).2.2.2.2.2.2.2.2.2.2.2.2.2.2.2.2.2]; omega

/-- Entry (r, o) of the result's block at point t is entry (8000·t + r, o) of the result array. -/
theorem emb_out (t : Fin cfg0.N) (r : Fin 8000) (o : Fin 9) :
    ((cfg0.win 8).blk t).view.emb (ix2 r o) = ix2 (edge t r) o := by
  funext a; apply Fin.ext
  match a with
  | ⟨0, _⟩ => show win0_8.index t (0 : Fin 2) * 8000 + 1 * r.val = t.val * 8000 + r.val; rw [(idx_facts t).2.2.2.2.2.2.1]; omega
  | ⟨1, _⟩ => show win0_8.index t (1 : Fin 2) * 9 + 1 * o.val = o.val; rw [(idx_facts t).2.2.2.2.2.2.2.1]; omega

/-! ## The blocks by name, and each entry of a block in terms of the arguments -/

/-- The eight blocks grid point t reads, each at its literal shape. -/
def bSrc (c : Dev nD) (t : Fin cfg0.N) : FVec Ideal S8000x64 .bf16 := iblk m c 0 t
def bDst (c : Dev nD) (t : Fin cfg0.N) : FVec Ideal S8000x64 .bf16 := iblk m c 1 t
def bTyp (c : Dev nD) (t : Fin cfg0.N) : IVec S8000x3 32 := iblk m c 2 t
def bW1 (c : Dev nD) (t : Fin cfg0.N) : FVec Ideal S64x9 .bf16 := iblk m c 3 t
def bW2 (c : Dev nD) (t : Fin cfg0.N) : FVec Ideal S64x9 .bf16 := iblk m c 4 t
def bW3 (c : Dev nD) (t : Fin cfg0.N) : FVec Ideal S4x9 .bf16 := iblk m c 5 t
def bW4 (c : Dev nD) (t : Fin cfg0.N) : FVec Ideal S4x9 .bf16 := iblk m c 6 t
def bW5 (c : Dev nD) (t : Fin cfg0.N) : FVec Ideal S12x9 .bf16 := iblk m c 7 t

/-- Row r of the source block is the reference's gathered source row of edge 8000·t + r. -/
theorem src_at (c : Dev nD) (t : Fin cfg0.N) (r : Fin 8000) (k : Fin 64) :
    bSrc m c t (ix2 r k) = (Cert.ReferenceIdeal.Read.val_main_v10 (F := Ideal) (m ((c : Thread nD τ).loc main_arg0)) (m ((c : Thread nD τ).loc main_arg1)) (ix2 (edge t r) k) : EReal) :=
  (read0 m c t r k).trans (congrFun (entry_src m c) (ix2 (edge t r) k))
/-- Row r of the destination block likewise. -/
theorem dst_at (c : Dev nD) (t : Fin cfg0.N) (r : Fin 8000) (k : Fin 64) :
    bDst m c t (ix2 r k) = (Cert.ReferenceIdeal.Read.val_main_v17 (F := Ideal) (m ((c : Thread nD τ).loc main_arg0)) (m ((c : Thread nD τ).loc main_arg1)) (ix2 (edge t r) k) : EReal) :=
  (read1 m c t r k).trans (congrFun (entry_dst m c) (ix2 (edge t r) k))
/-- The three type words of row r: the node type at the clamped source row, at the clamped destination row, and the edge's type. -/
theorem typ0_at (c : Dev nD) (t : Fin cfg0.N) (r : Fin 8000) :
    bTyp m c t (ix2 r (0 : Fin 3)) = (m ((c : Thread nD τ).loc main_arg3)) (ix1 (clampRow (N := 100000) (by decide) (Cert.ReferenceIdeal.Read.val_main_v24 (F := Ideal) (m ((c : Thread nD τ).loc main_arg1))) (edge t r))) :=
  (read2 m c t r 0).trans (types_src m c (edge t r))
theorem typ1_at (c : Dev nD) (t : Fin cfg0.N) (r : Fin 8000) :
    bTyp m c t (ix2 r (1 : Fin 3)) = (m ((c : Thread nD τ).loc main_arg3)) (ix1 (clampRow (N := 100000) (by decide) (Cert.ReferenceIdeal.Read.val_main_v31 (F := Ideal) (m ((c : Thread nD τ).loc main_arg1))) (edge t r))) :=
  (read2 m c t r 1).trans (types_dst m c (edge t r))
theorem typ2_at (c : Dev nD) (t : Fin cfg0.N) (r : Fin 8000) :
    bTyp m c t (ix2 r (2 : Fin 3)) = (m ((c : Thread nD τ).loc main_arg2)) (ix1 (edge t r)) :=
  (read2 m c t r 2).trans (types_edge m c (edge t r))
/-- The five weight blocks, entry (k, o): the weight matrix at row o and the piece's k-th column. -/
theorem w1_at (c : Dev nD) (t : Fin cfg0.N) (k : Fin 64) (o : Fin 9) :
    bW1 m c t (ix2 k o) = ((m ((c : Thread nD τ).loc main_arg4)) (ix2 o (⟨k.val, by omega⟩ : Fin 148)) : EReal) := (read3 m c t k o).trans (w39_at m c k o)
theorem w2_at (c : Dev nD) (t : Fin cfg0.N) (k : Fin 64) (o : Fin 9) :
    bW2 m c t (ix2 k o) = ((m ((c : Thread nD τ).loc main_arg4)) (ix2 o (⟨64 + k.val, by omega⟩ : Fin 148)) : EReal) := (read4 m c t k o).trans (w42_at m c k o)
theorem w3_at (c : Dev nD) (t : Fin cfg0.N) (k : Fin 4) (o : Fin 9) :
    bW3 m c t (ix2 k o) = ((m ((c : Thread nD τ).loc main_arg4)) (ix2 o (⟨128 + k.val, by omega⟩ : Fin 148)) : EReal) := (read5 m c t k o).trans (w45_at m c k o)
theorem w4_at (c : Dev nD) (t : Fin cfg0.N) (k : Fin 4) (o : Fin 9) :
    bW4 m c t (ix2 k o) = ((m ((c : Thread nD τ).loc main_arg4)) (ix2 o (⟨132 + k.val, by omega⟩ : Fin 148)) : EReal) := (read6 m c t k o).trans (w48_at m c k o)
theorem w5_at (c : Dev nD) (t : Fin cfg0.N) (k : Fin 12) (o : Fin 9) :
    bW5 m c t (ix2 k o) = ((m ((c : Thread nD τ).loc main_arg4)) (ix2 o (⟨136 + k.val, by omega⟩ : Fin 148)) : EReal) := (read7 m c t k o).trans (w51_at m c k o)

/-- The edge map at (e, o), spelled out. -/
theorem G_at (c : Dev nD) (e : Fin 1600000) (o : Fin 9) :
    G m c (ix2 e o) = Cert.EdgeMap.split
    (fun e k => (Cert.ReferenceIdeal.Read.val_main_v10 (F := Ideal) (m ((c : Thread nD τ).loc main_arg0)) (m ((c : Thread nD τ).loc main_arg1)) (ix2 e k) : EReal))
    (fun e k => (Cert.ReferenceIdeal.Read.val_main_v17 (F := Ideal) (m ((c : Thread nD τ).loc main_arg0)) (m ((c : Thread nD τ).loc main_arg1)) (ix2 e k) : EReal))
    (fun e => (m ((c : Thread nD τ).loc main_arg3)) (ix1 (clampRow (N := 100000) (by decide) (Cert.ReferenceIdeal.Read.val_main_v24 (F := Ideal) (m ((c : Thread nD τ).loc main_arg1))) e)))
    (fun e => (m ((c : Thread nD τ).loc main_arg3)) (ix1 (clampRow (N := 100000) (by decide) (Cert.ReferenceIdeal.Read.val_main_v31 (F := Ideal) (m ((c : Thread nD τ).loc main_arg1))) e)))
    (fun e => (m ((c : Thread nD τ).loc main_arg2)) (ix1 e))
    (fun o k => ((m ((c : Thread nD τ).loc main_arg4)) (ix2 o k) : EReal))
    e o := rfl

/-! ## What a grid point writes back -/

attribute [local irreducible] iblk

/-- Point t writes back block t of the edge map. -/
theorem flushed_eq (c : Dev nD) (t : Fin cfg0.N) :
    (dats m 0 c).flushed 8 t = ((cfg0.win 8).blk t).view.read (Elt Ideal) (G m c) := by
  show (cfg0.win 8).cut (grid0.coords t) ((dats m 0 c).after 8 t) = _
  rw [after8]
  unfold outBlock
  rw [View.canon_unit_zero hz]
  simp only [View.ld_unit_zero (S := S8000x64) hz, View.ld_unit_zero (S := S8000x3) hz, View.ld_unit_zero (S := S64x9) hz,
    View.ld_unit_zero (S := S4x9) hz, View.ld_unit_zero (S := S12x9) hz]
  funext j
  obtain ⟨r, o, rfl⟩ : ∃ (r : Fin 8000) (o : Fin 9), j = ix2 r o := ⟨j 0, j 1, eq_ix2 j⟩
  show k0_pay1 (F := Ideal) (k0_pay3 (bTyp m c t)) (k0_pay4 (bSrc m c t) (bDst m c t) (bTyp m c t) (bW1 m c t) (bW2 m c t) (bW3 m c t) (bW4 m c t)) (bW5 m c t) (ix2 r o)
    = G m c (((cfg0.win 8).blk t).view.emb (ix2 r o))
  refine (Cert.KernelIdeal.Block.store_at (bSrc m c t) (bDst m c t) (bTyp m c t) (bW1 m c t) (bW2 m c t) (bW3 m c t) (bW4 m c t) (bW5 m c t) r o).trans ?_
  rw [emb_out, G_at]
  unfold Cert.EdgeMap.split
  refine congrArg Ideal.tanh ?_
  have h1 : (∑ k : Fin 64, bSrc m c t (ix2 r k) * bW1 m c t (ix2 k o))
      = ∑ k : Fin 64, (Cert.ReferenceIdeal.Read.val_main_v10 (F := Ideal) (m ((c : Thread nD τ).loc main_arg0)) (m ((c : Thread nD τ).loc main_arg1)) (ix2 (edge t r) k) : EReal) * ((m ((c : Thread nD τ).loc main_arg4)) (ix2 o (⟨k.val, by omega⟩ : Fin 148)) : EReal) :=
    Finset.sum_congr rfl fun k _ => by rw [src_at, w1_at]
  have h2 : (∑ k : Fin 64, bDst m c t (ix2 r k) * bW2 m c t (ix2 k o))
      = ∑ k : Fin 64, (Cert.ReferenceIdeal.Read.val_main_v17 (F := Ideal) (m ((c : Thread nD τ).loc main_arg0)) (m ((c : Thread nD τ).loc main_arg1)) (ix2 (edge t r) k) : EReal) * ((m ((c : Thread nD τ).loc main_arg4)) (ix2 o (⟨64 + k.val, by omega⟩ : Fin 148)) : EReal) :=
    Finset.sum_congr rfl fun k _ => by rw [dst_at, w2_at]
  have h3 : (∑ k : Fin 4, Cert.EdgeMap.hot (bTyp m c t (ix2 r (0 : Fin 3))) k.val * bW3 m c t (ix2 k o))
      = ∑ k : Fin 4, Cert.EdgeMap.hot ((m ((c : Thread nD τ).loc main_arg3)) (ix1 (clampRow (N := 100000) (by decide) (Cert.ReferenceIdeal.Read.val_main_v24 (F := Ideal) (m ((c : Thread nD τ).loc main_arg1))) (edge t r)))) k.val * ((m ((c : Thread nD τ).loc main_arg4)) (ix2 o (⟨128 + k.val, by omega⟩ : Fin 148)) : EReal) :=
    Finset.sum_congr rfl fun k _ => by rw [typ0_at, w3_at]
  have h4 : (∑ k : Fin 4, Cert.EdgeMap.hot (bTyp m c t (ix2 r (1 : Fin 3))) k.val * bW4 m c t (ix2 k o))
      = ∑ k : Fin 4, Cert.EdgeMap.hot ((m ((c : Thread nD τ).loc main_arg3)) (ix1 (clampRow (N := 100000) (by decide) (Cert.ReferenceIdeal.Read.val_main_v31 (F := Ideal) (m ((c : Thread nD τ).loc main_arg1))) (edge t r)))) k.val * ((m ((c : Thread nD τ).loc main_arg4)) (ix2 o (⟨132 + k.val, by omega⟩ : Fin 148)) : EReal) :=
    Finset.sum_congr rfl fun k _ => by rw [typ1_at, w4_at]
  have h5 : (∑ k : Fin 12, Cert.EdgeMap.hot (bTyp m c t (ix2 r (2 : Fin 3))) k.val * bW5 m c t (ix2 k o))
      = ∑ k : Fin 12, Cert.EdgeMap.hot ((m ((c : Thread nD τ).loc main_arg2)) (ix1 (edge t r))) k.val * ((m ((c : Thread nD τ).loc main_arg4)) (ix2 o (⟨136 + k.val, by omega⟩ : Fin 148)) : EReal) :=
    Finset.sum_congr rfl fun k _ => by rw [typ2_at, w5_at]
  rw [h1, h2, h3, h4, h5]

/-! ## The blocks tile the result -/

theorem mem_blk (t : Fin cfg0.N) (i : S1600000x9.Idx) :
    i ∈ ((cfg0.win 8).blk t).view.set ↔ ∀ a : Fin 2, win0_8.index t a * S8000x9.size a ≤ (i a).val ∧ (i a).val < win0_8.index t a * S8000x9.size a + S8000x9.size a := by
  show i ∈ ((View.whole main_v52).slice (win0_8.rect t)).set ↔ _
  rw [View.set_slice_whole, Rect.mem_set_unit]
  exact Iff.rfl

/-- Every entry of the result array lies in the block of the point that handles its edge. -/
theorem cover (i : S1600000x9.Idx) : ∃ t : Fin cfg0.N, (cfg0.win 8).flush t = true ∧ i ∈ ((cfg0.win 8).blk t).view.set := by
  have hi0 : (i 0).val < 1600000 := (i 0).isLt
  have hi1 : (i 1).val < 9 := (i 1).isLt
  have hN : cfg0.N = 200 := N_0
  refine ⟨⟨(i 0).val / 8000, by rw [hN]; omega⟩, flush0_8 _, ?_⟩
  rw [mem_blk]
  intro a
  have f0 := (idx_facts ⟨(i 0).val / 8000, by rw [hN]; omega⟩).2.2.2.2.2.2.1
  have f1 := (idx_facts ⟨(i 0).val / 8000, by rw [hN]; omega⟩).2.2.2.2.2.2.2.1
  match a with
  | ⟨0, _⟩ =>
    show win0_8.index _ (0 : Fin 2) * 8000 ≤ (i 0).val ∧ (i 0).val < win0_8.index _ (0 : Fin 2) * 8000 + 8000
    rw [f0]; dsimp only; omega
  | ⟨1, _⟩ =>
    show win0_8.index _ (1 : Fin 2) * 9 ≤ (i 1).val ∧ (i 1).val < win0_8.index _ (1 : Fin 2) * 9 + 9
    rw [f1]; omega

/-- After the launch the result array holds the edge map. -/
theorem final (c : Dev nD) : (dats m 0 c).arrAt 8 cfg0.N = G m c :=
  (dats m 0 c).arrAt_eq_of_cover 8 (G m c) (fun t _ => flushed_eq m c t) cover

/-! ## The reshape after the launch -/

/-- The program's result: the edge map with each row's nine entries regrouped three by three. -/
theorem tail_result (c : Dev nD) :
    Pipeline.afterTail₀ cfgs (dats m) 0 (V0 m) [hostOps1] c main_v53
      = shapeCast S1600000x3x3 (G m c) shapeCasts_S1600000x9_S1600000x3x3 := by
  unfold Pipeline.afterTail₀
  show StableHlo.after hostOps1 _ (Proc.devRef .tc main_v53) = _
  host_results
  rw [(Pipeline.withArrays_arr spec0 launch0.win.arr_inj c _ _ 8).trans (final m c)]
  rfl

/-- Every weakly fair execution of the idealized kernel program ends with its result at the reshaped edge map and its five
    arguments as given. -/
theorem run : θ_run defs (onTc (τ := τ) (main (F := Ideal))) ⟨m, fun _ => 0, ρ⟩ (fun r => ∀ c : Dev nD,
      r.2.mem ((c.tc : Thread nD τ).loc main_v53) = shapeCast S1600000x3x3 (G m c) shapeCasts_S1600000x9_S1600000x3x3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v53 (Pipeline.mem_restRefs_of main_v53 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefStages.lean ====
/-
  The reference program's result, one entry at a time.

  The reference gathers the source and destination feature rows, gathers rows of the one-hot table of node types for both
  endpoints, builds the one-hot table of edge types, lays the five pieces side by side into a 148-entry row per edge,
  multiplies by the transposed weight matrix and applies the hyperbolic tangent. Read at edge e and output column o this is
  the joined form of the edge map: the gathered one-hot row of a node type is the one-hot code of the gathered type word,
  because both gathers look at the same clamped row of their tables.
-/
import proofs.«132518_j31842887533251_1_alg».proof.Proof.Gen.ReferenceIdeal.Read
import proofs.«132518_j31842887533251_1_alg».proof.Proof.EdgeMap
import proofs.«132518_j31842887533251_1_alg».proof.Proof.LibRowGather
import Idealize.ShloMosaic.Lib.ValueIdx
import Idealize.ShloMosaic.Lib.Pipeline.Value
import Idealize.ShloMosaic.PureOps.Ideal.Laws

noncomputable section

open scoped BigOperators

namespace Cert.ReferenceIdeal.Stages

open Cert.ReferenceIdeal Cert.ReferenceIdeal.Gen Cert.ReferenceIdeal.Read
open Idealize.ShloMosaic Idealize.ShloMosaic.ValueIdx

/-- An equality test of two words, converted to a real: one where they agree, zero elsewhere. -/
theorem uitofp_cmpi_eq (a b : BitVec 32) :
    (FloatOps.uitofp (F := Ideal) .f32 (IntOp.cmpi .eq a b) : EReal) = if a = b then 1 else 0 := by
  show (((BitVec.ofBool (a == b)).toNat : ℝ) : EReal) = _
  by_cases h : a = b
  · rw [if_pos h, h]; simp
  · rw [if_neg h]
    have hb : (a == b) = false := by simpa using h
    rw [hb]; simp

/-- The one-hot table of node types at row n and class c: the one-hot entry of the type word of node n. -/
theorem node_table_apply (x3 : (⟨S100000, .i32⟩ : BufTy).Contents (Elt Ideal)) (n : Fin 100000) (c : Fin 4) :
    (val_main_v18 (F := Ideal) x3 (ix2 n c) : EReal) = Cert.EdgeMap.hot (x3 (ix1 n)) c.val := by
  rw [val_main_v18_apply, val_main_call0_v4_apply, val_main_call0_v2_apply, val_main_call0_v0_apply,
    val_main_call0_v3_apply, val_main_call0_v1_apply]
  have hi : idx_main_call0_v0 (idx_main_call0_v2 (ix2 n c)) = ix1 n :=
    funext fun a => Fin.ext (by match a with | ⟨0, _⟩ => rfl)
  rw [hi]
  exact uitofp_cmpi_eq _ _

/-- The one-hot table of edge types at edge e and class c. -/
theorem edge_table_apply (x2 : (⟨S1600000, .i32⟩ : BufTy).Contents (Elt Ideal)) (e : Fin 1600000) (c : Fin 12) :
    (val_main_v33 (F := Ideal) x2 (ix2 e c) : EReal) = Cert.EdgeMap.hot (x2 (ix1 e)) c.val := by
  rw [val_main_v33_apply, val_main_call1_v4_apply, val_main_call1_v2_apply, val_main_call1_v0_apply,
    val_main_call1_v3_apply, val_main_call1_v1_apply]
  have hi : idx_main_call1_v0 (idx_main_call1_v2 (ix2 e c)) = ix1 e :=
    funext fun a => Fin.ext (by match a with | ⟨0, _⟩ => rfl)
  rw [hi]
  exact uitofp_cmpi_eq _ _

/-- A gathered row of the node-type table, at class c: the one-hot entry of the type word at the clamped row. -/
theorem node_gather_apply (x3 : (⟨S100000, .i32⟩ : BufTy).Contents (Elt Ideal))
    (I : (⟨S1600000x1, .i32⟩ : BufTy).Contents (Elt Ideal)) (e : Fin 1600000) (c : Fin 4) :
    (Host.gather gather_S100000x4_S1600000x1_S1600000x4_1_0_n_n_0_1_14 (val_main_v18 (F := Ideal) x3) I (ix2 e c) : EReal)
      = Cert.EdgeMap.hot (x3 (ix1 (Cert.LibRowGather.clampRow (N := 100000) (by decide) I e))) c.val := by
  have h := Cert.LibRowGather.gather_rows_clamped (N := 100000) (C := 4) (E := 1600000) (by decide)
    gather_S100000x4_S1600000x1_S1600000x4_1_0_n_n_0_1_14_wf (val_main_v18 (F := Ideal) x3) I e c
  exact h.trans (node_table_apply x3 _ c)

section Pieces

variable (x0 : (⟨S100000x64, .f32⟩ : BufTy).Contents (Elt Ideal)) (x1 : (⟨S2x1600000, .i32⟩ : BufTy).Contents (Elt Ideal))
  (x2 : (⟨S1600000, .i32⟩ : BufTy).Contents (Elt Ideal)) (x3 : (⟨S100000, .i32⟩ : BufTy).Contents (Elt Ideal))

/-- The joined row at an entry below 64: the source node's feature. -/
theorem cat_src (e : Fin 1600000) (k : Fin 148) (h : k.val < 64) :
    val_main_v34 (F := Ideal) x0 x1 x2 x3 (ix2 e k) = val_main_v10 (F := Ideal) x0 x1 (ix2 e (⟨k.val, h⟩ : Fin 64)) := by
  unfold val_main_v34
  exact concatenate_apply_piece _ _ _ (ix2 e k) 0 (by show (0 : Nat) < 5; omega) S1600000x64 _ rfl rfl 0 rfl
    (ix2 e (⟨k.val, h⟩ : Fin 64)) (fun b hb => by match b with | ⟨0, _⟩ => rfl | ⟨1, _⟩ => exact absurd rfl hb)
    (by show 0 + k.val = k.val; omega)

/-- The joined row at an entry from 64 up to 128: the destination node's feature. -/
theorem cat_dst (e : Fin 1600000) (k : Fin 148) (h0 : ¬ k.val < 64) (h : k.val < 128) :
    val_main_v34 (F := Ideal) x0 x1 x2 x3 (ix2 e k)
      = val_main_v17 (F := Ideal) x0 x1 (ix2 e (⟨k.val - 64, by omega⟩ : Fin 64)) := by
  unfold val_main_v34
  exact concatenate_apply_piece _ _ _ (ix2 e k) 1 (by show (1 : Nat) < 5; omega) S1600000x64 _ rfl rfl 64 rfl
    (ix2 e (⟨k.val - 64, by omega⟩ : Fin 64)) (fun b hb => by match b with | ⟨0, _⟩ => rfl | ⟨1, _⟩ => exact absurd rfl hb)
    (by show 64 + (k.val - 64) = k.val; omega)

/-- The joined row at an entry from 128 up to 132: the gathered one-hot row of the source node's type. -/
theorem cat_src_type (e : Fin 1600000) (k : Fin 148) (h0 : ¬ k.val < 128) (h : k.val < 132) :
    val_main_v34 (F := Ideal) x0 x1 x2 x3 (ix2 e k)
      = val_main_v25 (F := Ideal) x1 x3 (ix2 e (⟨k.val - 128, by omega⟩ : Fin 4)) := by
  unfold val_main_v34
  exact concatenate_apply_piece _ _ _ (ix2 e k) 2 (by show (2 : Nat) < 5; omega) S1600000x4 _ rfl rfl 128 rfl
    (ix2 e (⟨k.val - 128, by omega⟩ : Fin 4)) (fun b hb => by match b with | ⟨0, _⟩ => rfl | ⟨1, _⟩ => exact absurd rfl hb)
    (by show 128 + (k.val - 128) = k.val; omega)

/-- The joined row at an entry from 132 up to 136: the gathered one-hot row of the destination node's type. -/
theorem cat_dst_type (e : Fin 1600000) (k : Fin 148) (h0 : ¬ k.val < 132) (h : k.val < 136) :
    val_main_v34 (F := Ideal) x0 x1 x2 x3 (ix2 e k)
      = val_main_v32 (F := Ideal) x1 x3 (ix2 e (⟨k.val - 132, by omega⟩ : Fin 4)) := by
  unfold val_main_v34
  exact concatenate_apply_piece _ _ _ (ix2 e k) 3 (by show (3 : Nat) < 5; omega) S1600000x4 _ rfl rfl 132 rfl
    (ix2 e (⟨k.val - 132, by omega⟩ : Fin 4)) (fun b hb => by match b with | ⟨0, _⟩ => rfl | ⟨1, _⟩ => exact absurd rfl hb)
    (by show 132 + (k.val - 132) = k.val; omega)

/-- The joined row at an entry from 136 on: the one-hot row of the edge's type. -/
theorem cat_edge_type (e : Fin 1600000) (k : Fin 148) (h0 : ¬ k.val < 136) :
    val_main_v34 (F := Ideal) x0 x1 x2 x3 (ix2 e k)
      = val_main_v33 (F := Ideal) x2 (ix2 e (⟨k.val - 136, by have := k.isLt; omega⟩ : Fin 12)) := by
  unfold val_main_v34
  exact concatenate_apply_piece _ _ _ (ix2 e k) 4 (by show (4 : Nat) < 5; omega) S1600000x12 _ rfl rfl 136 rfl
    (ix2 e (⟨k.val - 136, by have := k.isLt; omega⟩ : Fin 12))
    (fun b hb => by match b with | ⟨0, _⟩ => rfl | ⟨1, _⟩ => exact absurd rfl hb)
    (by show 136 + (k.val - 136) = k.val; omega)

/-- Entry k of edge e's joined row in the reference is entry k of the edge map's feature row. -/
theorem cat_feat (e : Fin 1600000) (k : Fin 148) :
    (val_main_v34 (F := Ideal) x0 x1 x2 x3 (ix2 e k) : EReal)
      = Cert.EdgeMap.feat
          (fun e k => (val_main_v10 (F := Ideal) x0 x1 (ix2 e k) : EReal))
          (fun e k => (val_main_v17 (F := Ideal) x0 x1 (ix2 e k) : EReal))
          (fun e => x3 (ix1 (Cert.LibRowGather.clampRow (N := 100000) (by decide) (val_main_v24 (F := Ideal) x1) e)))
          (fun e => x3 (ix1 (Cert.LibRowGather.clampRow (N := 100000) (by decide) (val_main_v31 (F := Ideal) x1) e)))
          (fun e => x2 (ix1 e)) e k := by
  unfold Cert.EdgeMap.feat
  by_cases h1 : k.val < 64
  · rw [dif_pos h1]; exact cat_src x0 x1 x2 x3 e k h1
  · rw [dif_neg h1]
    by_cases h2 : k.val < 128
    · rw [dif_pos h2]; exact cat_dst x0 x1 x2 x3 e k h1 h2
    · rw [dif_neg h2]
      by_cases h3 : k.val < 132
      · rw [if_pos h3, cat_src_type x0 x1 x2 x3 e k h2 h3]
        unfold val_main_v25
        exact node_gather_apply x3 _ e _
      · rw [if_neg h3]
        by_cases h4 : k.val < 136
        · rw [if_pos h4, cat_dst_type x0 x1 x2 x3 e k h3 h4]
          unfold val_main_v32
          exact node_gather_apply x3 _ e _
        · rw [if_neg h4, cat_edge_type x0 x1 x2 x3 e k h4]
          exact edge_table_apply x2 e _

end Pieces

/-- The reference's result before its final reshape, at edge `e` and output column `o`: the joined form of the edge map
    over the two gathered feature arrays, the node-type words at the clamped source and destination rows, the edge-type
    words, and the weight matrix. -/
theorem ref_entry (x0 : (⟨S100000x64, .f32⟩ : BufTy).Contents (Elt Ideal)) (x1 : (⟨S2x1600000, .i32⟩ : BufTy).Contents (Elt Ideal))
    (x2 : (⟨S1600000, .i32⟩ : BufTy).Contents (Elt Ideal)) (x3 : (⟨S100000, .i32⟩ : BufTy).Contents (Elt Ideal))
    (x4 : (⟨S9x148, .f32⟩ : BufTy).Contents (Elt Ideal)) (e : Fin 1600000) (o : Fin 9) :
    (val_main_v37 (F := Ideal) x0 x1 x2 x3 x4 (ix2 e o) : EReal)
      = Cert.EdgeMap.joined
          (fun e k => (val_main_v10 (F := Ideal) x0 x1 (ix2 e k) : EReal))
          (fun e k => (val_main_v17 (F := Ideal) x0 x1 (ix2 e k) : EReal))
          (fun e => x3 (ix1 (Cert.LibRowGather.clampRow (N := 100000) (by decide) (val_main_v24 (F := Ideal) x1) e)))
          (fun e => x3 (ix1 (Cert.LibRowGather.clampRow (N := 100000) (by decide) (val_main_v31 (F := Ideal) x1) e)))
          (fun e => x2 (ix1 e))
          (fun o k => (x4 (ix2 o k) : EReal)) e o := by
  rw [val_main_v37_apply, val_main_v36_apply]
  unfold Cert.EdgeMap.joined
  show Ideal.tanh _ = Ideal.tanh _
  congr 1
  refine Finset.sum_congr rfl fun k _ => ?_
  rw [val_main_v35_apply]
  have hl : lidx_main_v36 (ix2 e o) k = ix2 e k :=
    funext fun a => Fin.ext (by match a with | ⟨0, _⟩ => rfl | ⟨1, _⟩ => rfl)
  have hr : idx_main_v35 (ridx_main_v36 (ix2 e o) k) = ix2 o k :=
    funext fun a => Fin.ext (by match a with | ⟨0, _⟩ => rfl | ⟨1, _⟩ => rfl)
  rw [hl, hr, cat_feat x0 x1 x2 x3 e k]

end Cert.ReferenceIdeal.Stages

end
-- ==== Proof.lean ====
/-
  A kernel that maps every edge of a typed graph to a 3 by 3 matrix, against its reference.

  For edge e with endpoints src, dst the reference joins the 64 features of src, the 64 features of dst, the one-hot code of
  src's node type, the one-hot code of dst's node type and the one-hot code of the edge's type into a row of 148 entries,
  multiplies it with the transposed 9 by 148 weight matrix and applies the hyperbolic tangent; the nine results are laid out
  three by three. The kernel never forms the row: it gathers the two feature rows and the three type words, and, 8000 edges
  at a time, adds five smaller products (features against their 64 weight columns, each one-hot code, formed on the spot from
  its type word, against its 4 or 12 weight columns) before the hyperbolic tangent.

  Over the extended reals the two agree on every input: a sum over the 148 entries is the sum of the five sums over its
  consecutive pieces (addition is commutative and associative there, without any finiteness condition), a gathered row of
  the one-hot table is the one-hot code of the gathered type word (both gathers clamp the same start index to the same row),
  and narrowing a float's format is the identity. Out-of-range indices are clamped alike on both sides and a type word
  outside its classes gives the zero code on both sides, so the precondition is not used.

  The three programs run to their ends and leave their arguments unchanged: for the reference this is its run; for the two
  kernel programs it is the run of the launch over its 200 grid points, each point reading its eight blocks and storing one,
  between sixty array operations before the launch and one reshape after it, none of which writes an argument.
-/
import proofs.«132518_j31842887533251_1_alg».proof.Defs
import proofs.«132518_j31842887533251_1_alg».proof.Proof.BodyBits
import proofs.«132518_j31842887533251_1_alg».proof.Proof.KernelValue
import proofs.«132518_j31842887533251_1_alg».proof.Proof.RefStages
import proofs.«132518_j31842887533251_1_alg».proof.Proof.Gen.Kernel
import proofs.«132518_j31842887533251_1_alg».proof.Proof.Gen.KernelIdeal
import proofs.«132518_j31842887533251_1_alg».proof.Proof.Gen.ReferenceIdeal
import proofs.«132518_j31842887533251_1_alg».proof.Proof.Gen.ReferenceIdeal.Run
import proofs.«132518_j31842887533251_1_alg».proof.Proof.Gen.Pre_finite_inputs

noncomputable section

namespace Cert.Proof

open Idealize.ShloMosaic Idealize.ShloMosaic.TcCoe Idealize.ShloMosaic.ValueIdx Idealize.SL.Sem

/-- The reference's result before its reshape is the kernel's result before its reshape, as whole arrays over the same
    arguments: entry by entry, the joined form of the edge map is its five-sum form. -/
theorem ref_eq_kernel (m : (ℓ : Loc Cert.KernelIdeal.nD Cert.KernelIdeal.τ Cert.KernelIdeal.sig) → Buf (Elt Ideal) ℓ) (c : Dev Cert.KernelIdeal.nD) :
    Cert.ReferenceIdeal.Read.val_main_v37 (F := Ideal)
        (m ((c : Thread Cert.KernelIdeal.nD Cert.KernelIdeal.τ).loc Cert.KernelIdeal.main_arg0)) (m ((c : Thread Cert.KernelIdeal.nD Cert.KernelIdeal.τ).loc Cert.KernelIdeal.main_arg1))
        (m ((c : Thread Cert.KernelIdeal.nD Cert.KernelIdeal.τ).loc Cert.KernelIdeal.main_arg2)) (m ((c : Thread Cert.KernelIdeal.nD Cert.KernelIdeal.τ).loc Cert.KernelIdeal.main_arg3))
        (m ((c : Thread Cert.KernelIdeal.nD Cert.KernelIdeal.τ).loc Cert.KernelIdeal.main_arg4))
      = Cert.KernelIdeal.Result.G m c := by
  funext i
  obtain ⟨e, o, rfl⟩ : ∃ (e : Fin 1600000) (o : Fin 9), i = ix2 e o := ⟨i 0, i 1, eq_ix2 i⟩
  refine (Cert.ReferenceIdeal.Stages.ref_entry _ _ _ _ _ e o).trans ?_
  rw [Cert.EdgeMap.joined_eq_split]
  exact (Cert.KernelIdeal.Result.G_at m c e o).symm

theorem frame_kernel : Cert.frame_Kernel := fun m ρ _ => Cert.Kernel.Around.frame m ρ

theorem frame_kernel_ideal : Cert.frame_KernelIdeal := fun m ρ _ => Cert.KernelIdeal.Around.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the five arguments both idealized programs end with the reshaped edge map over those
    arguments as their result. -/
theorem algebraic : Cert.algebraic_KernelIdeal_ReferenceIdeal := by
  intro m ρ m' ρ' _ hagree
  refine ⟨fun c => shapeCast Cert.KernelIdeal.S1600000x3x3 (Cert.KernelIdeal.Result.G m c) Cert.KernelIdeal.Facts₀.shapeCasts_S1600000x9_S1600000x3x3,
    Cert.KernelIdeal.Result.run m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v38_eq, (hagree c).1, (hagree c).2.1, (hagree c).2.2.1, (hagree c).2.2.2.1, (hagree c).2.2.2.2]
  unfold Cert.ReferenceIdeal.Read.val_main_v38
  rw [ref_eq_kernel m c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
